-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2048x6144 : Shape := ⟨2, ![2048, 6144]⟩
abbrev S6144 : Shape := ⟨1, ![6144]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_

variable [Facts]

def fn {F : FTy → Type} [FloatOps F] (main_arg0 : FVec F S2x2048x2048 .f32) (main_arg1 : FVec F S2048x6144 .f32) (main_arg2 : FVec F S6144 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048x6144 .f32 := Host.absf main_arg1
  let main_cst_0 : FVec F S_ .f32 := constant S_ .f32 0x7F800000#32
  let main_v5 : FVec F S2048x6144 .f32 := broadcastInDim S2048x6144 ![] bcast_S_S2048x6144 main_cst_0
  let main_v6 : IVec S2048x6144 1 := cmpf .olt main_v4 main_v5
  let main_c_1 : IVec S_ 1 := constantI S_ 1 1#1
  let main_v7 : IVec S_ 1 := (fun x v => Host.reduce IntOp.andi x v reducesTo_S2048x6144_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  main_v13
-- ==== Kernel.lean ====
abbrev S2x2048x2048 : Shape := ⟨3, ![2, 2048, 2048]⟩
abbrev S2048x6144 : Shape := ⟨2, ![2048, 6144]⟩
abbrev S6144 : Shape := ⟨1, ![6144]⟩
abbrev S4096x2048 : Shape := ⟨2, ![4096, 2048]⟩
abbrev S4096x6144 : Shape := ⟨2, ![4096, 6144]⟩
abbrev S2048x2048 : Shape := ⟨2, ![2048, 2048]⟩
abbrev S2048x256 : Shape := ⟨2, ![2048, 256]⟩
abbrev S256 : Shape := ⟨1, ![256]⟩
abbrev S1x256 : Shape := ⟨2, ![1, 256]⟩
abbrev S2x2048x6144 : Shape := ⟨3, ![2, 2048, 6144]⟩
abbrev S2x16x2048x2048 : Shape := ⟨4, ![2, 16, 2048, 2048]⟩
abbrev S1x256x128 : Shape := ⟨3, ![1, 256, 128]⟩
abbrev S1x2048x128 : Shape := ⟨3, ![1, 2048, 128]⟩
abbrev S1x1x256x2048 : Shape := ⟨4, ![1, 1, 256, 2048]⟩
abbrev S256x128 : Shape := ⟨2, ![256, 128]⟩
abbrev S2048x128 : Shape := ⟨2, ![2048, 128]⟩
abbrev S256x2048 : Shape := ⟨2, ![256, 2048]⟩
abbrev S256x1 : Shape := ⟨2, ![256, 1]⟩

abbrev nBuf : Space → Nat
  | .hbm => 8
  | .vmem => 18
  | .smem => 0
  | _ => 0

abbrev bufTy : (tb : Table) → Fin (tcTables nBuf tb) → BufTy
  | .hbm, ⟨0, _⟩ => ⟨S2x2048x2048, .f32⟩
  | .hbm, ⟨1, _⟩ => ⟨S2048x6144, .f32⟩
  | .hbm, ⟨2, _⟩ => ⟨S6144, .f32⟩
  | .hbm, ⟨3, _⟩ => ⟨S4096x2048, .f32⟩
  | .hbm, ⟨4, _⟩ => ⟨S4096x6144, .bf16⟩
  | .hbm, ⟨5, _⟩ => ⟨S2x2048x6144, .bf16⟩
  | .hbm, ⟨6, _⟩ => ⟨S2x2048x2048, .f32⟩
  | .hbm, ⟨7, _⟩ => ⟨S2x16x2048x2048, .f32⟩
  | .local _ .vmem, ⟨0, _⟩ => ⟨S2048x2048, .f32⟩
  | .local _ .vmem, ⟨1, _⟩ => ⟨S2048x2048, .f32⟩
  | .local _ .vmem, ⟨2, _⟩ => ⟨S2048x256, .f32⟩
  | .local _ .vmem, ⟨3, _⟩ => ⟨S2048x256, .f32⟩
  | .local _ .vmem, ⟨4, _⟩ => ⟨S256, .f32⟩
  | .local _ .vmem, ⟨5, _⟩ => ⟨S256, .f32⟩
  | .local _ .vmem, ⟨6, _⟩ => ⟨S2048x256, .bf16⟩
  | .local _ .vmem, ⟨7, _⟩ => ⟨S2048x256, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x256x128, .f32⟩
  | .local _ .vmem, ⟨15, _⟩ => ⟨S1x256x128, .f32⟩
  | .local _ .vmem, ⟨16, _⟩ => ⟨S1x1x256x2048, .f32⟩
  | .local _ .vmem, ⟨17, _⟩ => ⟨S1x1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 16, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  shapeCasts_S2x2048x2048_S4096x2048 : S2x2048x2048.ShapeCasts S4096x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  shapeCasts_S4096x6144_S2x2048x6144 : S4096x6144.ShapeCasts S2x2048x6144
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S256x2048_S256 : S256x2048.Reduces [1] S256
  shapeCasts_S256_S256x1 : S256.ShapeCasts S256x1
  broadcasts_S256x1_S256x2048 : S256x1.Broadcasts S256x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  shapeCasts_S256x128_S1x256x128 : S256x128.ShapeCasts S1x256x128
  dot_S2048x2048_S2048x256_S2048x256_1_0_0_1_n_n_wf : DotDims.WF S2048x2048 S2048x256 S2048x256 [1] [0] [0] [1] [] []
  dot_S256x128_S2048x128_S256x2048_1_1_0_0_n_n_wf : DotDims.WF S256x128 S2048x128 S256x2048 [1] [1] [0] [0] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S4096x2048.size a
  hwx0_0 : ∀ i : grid0.Coords, EltTy.bits .f32 = 32 ∨ (Rect.block (s := S4096x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x6144.size a
  hwx0_1 : ∀ i : grid0.Coords, EltTy.bits .f32 = 32 ∨ (Rect.block (s := S2048x6144) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S6144.size a
  hwx0_2 : ∀ i : grid0.Coords, EltTy.bits .f32 = 32 ∨ (Rect.block (s := S6144) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S4096x6144.size a
  hwx0_3 : ∀ i : grid0.Coords, EltTy.bits .bf16 = 32 ∨ (Rect.block (s := S4096x6144) S2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S2x2048x6144.size a
  hwx1_0 : ∀ i : grid1.Coords, EltTy.bits .bf16 = 32 ∨ (Rect.block (s := S2x2048x6144) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x6144.size a
  hwx1_1 : ∀ i : grid1.Coords, EltTy.bits .bf16 = 32 ∨ (Rect.block (s := S2x2048x6144) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x6144.size a
  hwx1_2 : ∀ i : grid1.Coords, EltTy.bits .bf16 = 32 ∨ (Rect.block (s := S2x2048x6144) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S2x2048x2048.size a
  hwx1_3 : ∀ i : grid1.Coords, EltTy.bits .f32 = 32 ∨ (Rect.block (s := S2x2048x2048) S1x256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x256x2048.size a ≤ S2x16x2048x2048.size a
  hwx1_4 : ∀ i : grid1.Coords, EltTy.bits .f32 = 32 ∨ (Rect.block (s := S2x16x2048x2048) S1x1x256x2048.size (cc1_transform_4 i) (hinb1_4 i)).WholeWords (EltTy.packing .f32)

variable [Facts₀]

def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_v0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x256x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x1x256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x2048 : Shape := ⟨3, ![2, 2048, 2048]⟩
abbrev S2048x6144 : Shape := ⟨2, ![2048, 6144]⟩
abbrev S6144 : Shape := ⟨1, ![6144]⟩
abbrev S2x2048x6144 : Shape := ⟨3, ![2, 2048, 6144]⟩
abbrev S1x1x6144 : Shape := ⟨3, ![1, 1, 6144]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x6144, .f32⟩
  | .hbm, ⟨2, _⟩ => ⟨S6144, .f32⟩
  | .hbm, ⟨3, _⟩ => ⟨S2x2048x6144, .f32⟩
  | .hbm, ⟨4, _⟩ => ⟨S1x1x6144, .f32⟩
  | .hbm, ⟨5, _⟩ => ⟨S2x2048x6144, .f32⟩
  | .hbm, ⟨6, _⟩ => ⟨S2x2048x6144, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x16x128, .f32⟩
  | .hbm, ⟨11, _⟩ => ⟨S2x16x2048x128, .f32⟩
  | .hbm, ⟨12, _⟩ => ⟨S2x2048x16x128, .f32⟩
  | .hbm, ⟨13, _⟩ => ⟨S2x16x2048x128, .f32⟩
  | .hbm, ⟨14, _⟩ => ⟨S2x2048x16x128, .f32⟩
  | .hbm, ⟨15, _⟩ => ⟨S2x16x2048x128, .f32⟩
  | .hbm, ⟨16, _⟩ => ⟨S2x16x2048x2048, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S_, .f32⟩
  | .hbm, ⟨23, _⟩ => ⟨S2x16x2048, .f32⟩
  | .hbm, ⟨24, _⟩ => ⟨S2x16x2048, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S_, .f32⟩
  | .hbm, ⟨30, _⟩ => ⟨S2x16x2048, .f32⟩
  | .hbm, ⟨31, _⟩ => ⟨S2x16x2048x1, .f32⟩
  | .hbm, ⟨32, _⟩ => ⟨S2x16x2048x2048, .f32⟩
  | .hbm, ⟨33, _⟩ => ⟨S2x16x2048x2048, .f32⟩
  | .hbm, ⟨34, _⟩ => ⟨S2x16x2048x128, .f32⟩
  | .hbm, ⟨35, _⟩ => ⟨S2x2048x16x128, .f32⟩
  | .hbm, ⟨36, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]

class Facts₀ : Prop where
  bcast_S6144_S1x1x6144_2 : S6144.BroadcastsInDim S1x1x6144 (![2] : Fin 1 → Fin S1x1x6144.rank)
  bcast_S1x1x6144_S2x2048x6144_0_1_2 : S1x1x6144.BroadcastsInDim S2x2048x6144 (![0, 1, 2] : Fin 3 → Fin S2x2048x6144.rank)
  slices_S2x2048x6144_S2x2048x2048_0_0_0 : S2x2048x6144.Slices ![0, 0, 0] S2x2048x2048
  slices_S2x2048x6144_S2x2048x2048_0_0_2048 : S2x2048x6144.Slices ![0, 0, 2048] S2x2048x2048
  slices_S2x2048x6144_S2x2048x2048_0_0_4096 : S2x2048x6144.Slices ![0, 0, 4096] S2x2048x2048
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x2048x2048_S2048x6144_S2x2048x6144_2_0_01_1_n_n_wf : DotDims.WF S2x2048x2048 S2048x6144 S2x2048x6144 [2] [0] [0, 1] [1] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x2048x2048_S2048x6144_S2x2048x6144_2_0_01_1_n_n : DotDims S2x2048x2048 S2048x6144 S2x2048x6144 where
  lhsContracting := [2]
  rhsContracting := [0]
  lhsNonContracting := [0, 1]
  rhsNonContracting := [1]
  lhsBatch := []
  rhsBatch := []
  wf := dot_S2x2048x2048_S2048x6144_S2x2048x6144_2_0_01_1_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.KRegion0.lean ====
import proofs.«400691_j29222957482045_3_alg».proof.Proof.Gen.Kernel.Launch
import proofs.«400691_j29222957482045_3_alg».proof.Proof.Gen.Kernel.Skeleton
import proofs.«400691_j29222957482045_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body half of region 0 of the kernel program (its first TensorCore call, a pipeline of four
    windows over a 2 × 24 grid): at every grid point the body reads the three input windows' blocks and leaves in
    the output window's buffer the rounded product-plus-bias of those blocks. Everything is stated for an arbitrary
    float instance and relative to arbitrary buffer contents \`V\` at the moment the region is entered. -/

-- deciding membership in a rectangle with axes of length 2048 recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when region 0 is entered; every statement below is relative to it
variable (V : (c : Dev nD) → (b : Ref sig .tc) → Buf (Elt F) ((c : Thread nD τ).loc b))

/-! ## The windows' blocks -/

/-- The block of window \`w\` at grid point \`t\`: the sub-array of the window's array, with the array at its
    region-entry contents \`V\`, that the window's index map selects at \`t\`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the 2048 × 2048 left factor, whose block index depends on the first grid coordinate only, so
    that it is transferred once per 24 points): for any proof data whose array 0 is \`V\`'s and whose body leaves the
    block untouched, the buffer the body is handed at point \`t\` holds the block at \`t\`, whether or not a transfer
    happened at \`t\` — where none did the block index is the previous point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the 2048 × 256 right factor): under the same two hypotheses on the proof data, the buffer
    handed to the body at point \`t\` holds the window's block at \`t\`. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the length-256 bias): under the same two hypotheses on the proof data, the buffer handed to
    the body at point \`t\` holds the window's block at \`t\`. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- The whole of a 2048 × 2048 buffer: origin (0, 0), full extent. -/
abbrev r0_0 : Rect S2048x2048 := Rect.unit (s := S2048x2048) ![0, 0] S2048x2048.size inb_S2048x2048_S2048x2048_0_0
/-- The whole of a 2048 × 256 buffer, as the second load reads it. -/
abbrev r0_1 : Rect S2048x256 := Rect.unit (s := S2048x256) ![0, 0] S2048x256.size inb_S2048x256_S2048x256_0_0
/-- The whole of a length-256 buffer. -/
abbrev r0_2 : Rect S256 := Rect.unit (s := S256) ![0] S256.size inb_S256_S256_0
/-- The whole of a 2048 × 256 buffer, as the store writes it. -/
abbrev r0_3 : Rect S2048x256 := Rect.unit (s := S2048x256) ![0, 0] S2048x256.size inb_S2048x256_S2048x256_0_0

/-! ## What the body leaves in the output window's buffer -/

/-- The contents of the output buffer after the body, as a function of the three input buffers' contents: the
    single store's payload — the product of the two factors rounded to bf16, accumulated in f32, plus the bias
    along rows, rounded to bf16 — laid over the whole buffer. -/
def out0_3 (x0 : Vec F S2048x2048 .f32) (x1 : Vec F S2048x256 .f32) (x2 : Vec F S256 .f32) : Vec F S2048x256 .bf16 :=
  View.canon [⟨r0_3, k0_pay1 (View.ld x0 r0_0) (View.ld x1 r0_1) (View.ld x2 r0_2)⟩]

/-- The single store's rectangle is the whole 2048 × 256 shape, so every index of the buffer lies in it. -/
theorem cover0_3 (p0 : Vec F S2048x256 .bf16) (y : S2048x256.Idx) :
    ∃ pc ∈ ([⟨r0_3, p0⟩] : List (View.Piece (Elt F) S2048x256 .bf16)), y ∈ pc.1.set :=
  View.cover_of_tiled [⟨r0_3, p0⟩] S2048x256.size (by rfl) y

/-! ## The body's triple -/

set_option maxHeartbeats 1000000 in
/-- The kernel function on four whole memrefs, at any grid point: owning the three inputs in full at read contents
    \`x0\`, \`x1\`, \`x2\` and the output in full at any contents, it runs to a state where the inputs read as before and the
    output reads \`out0_3 x0 x1 x2\`. The function equals its sequence of three input loads, one load of the output
    (whose value is not used) and one whole-buffer store, which is executed step by step. -/
theorem sound_kernel0 (c : Dev nD) (E : Set ℕ) (i : grid0.Coords)
    (arg2 : Memref sig .tc .vmem S2048x2048 .f32) (harg2 : arg2.IsWhole) (arg3 : Memref sig .tc .vmem S2048x256 .f32) (harg3 : arg3.IsWhole)
    (arg4 : Memref sig .tc .vmem S256 .f32) (harg4 : arg4.IsWhole) (arg5 : Memref sig .tc .vmem S2048x256 .bf16) (harg5 : arg5.IsWhole)
    (x0 : Vec F S2048x2048 .f32) (x1 : Vec F S2048x256 .f32) (x2 : Vec F S256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core \`c\`: each window's array at its region-entry contents \`V\`; after the body
    at point \`t\`, each input buffer at its block there and the output buffer at \`out0_3\` of the three input blocks;
    the invariant that of a body touching nothing but its windows; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's array for window \`w\` is the region-entry contents of that window's array. -/
theorem A_eq0 (c : Dev nD) (w : Fin cfg0.W) : (dat0 V c).A w = V c (Pipeline.arrRef spec0 w) := by
  dsimp only [dat0]

/-- After the body at \`t\`, input buffer 0 holds window 0's block at \`t\`. -/
theorem after0_0 (c : Dev nD) (t : Fin cfg0.N) : (dat0 V c).after 0 t = iblk0 V c 0 t := by dsimp only [dat0]
/-- After the body at \`t\`, input buffer 1 holds window 1's block at \`t\`. -/
theorem after0_1 (c : Dev nD) (t : Fin cfg0.N) : (dat0 V c).after 1 t = iblk0 V c 1 t := by dsimp only [dat0]
/-- After the body at \`t\`, input buffer 2 holds window 2's block at \`t\`. -/
theorem after0_2 (c : Dev nD) (t : Fin cfg0.N) : (dat0 V c).after 2 t = iblk0 V c 2 t := by dsimp only [dat0]
/-- After the body at \`t\`, the output buffer holds \`out0_3\` of the three input blocks at \`t\`. -/
theorem after0_3 (c : Dev nD) (t : Fin cfg0.N) :
    (dat0 V c).after 3 t = out0_3 (iblk0 V c 0 t) (iblk0 V c 1 t) (iblk0 V c 2 t) := by dsimp only [dat0]

/-- Before the body at \`t\`, input buffer 0 holds window 0's block at \`t\`. -/
theorem before0_0 (c : Dev nD) (t : Fin cfg0.N) (d) : (dat0 V c).before 0 t d = iblk0 V c 0 t :=
  before0_0_of V (dat0 V c) (A_eq0 V c 0) (after0_0 V c) t d
/-- Before the body at \`t\`, input buffer 1 holds window 1's block at \`t\`. -/
theorem before0_1 (c : Dev nD) (t : Fin cfg0.N) (d) : (dat0 V c).before 1 t d = iblk0 V c 1 t :=
  before0_1_of V (dat0 V c) (A_eq0 V c 1) (after0_1 V c) t d
/-- Before the body at \`t\`, input buffer 2 holds window 2's block at \`t\`. -/
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- The precondition of the body at point \`t\`: the invariant and the debt as they stand before \`t\`, and each of the
    four current staging memrefs owned in full at what the proof data says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- The postcondition of the body at point \`t\`: the invariant and the debt as they stand after \`t\`, and each of the
    four staging memrefs owned in full at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point \`t\` takes its precondition to its postcondition: the three input memrefs hold their
    blocks (\`before0_0\`, \`before0_1\`, \`before0_2\`), so the kernel function's triple applies at those blocks; the
    invariant and the debt are the same before and after and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0 on core \`c\` at the proof data \`dat0\`: the conjunction over the four windows
    written out one by one, then the triple above at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/- REGION 1 of the kernel program (custom_call 1, kernel function cc1_kernel, pipeline cfg1), at any
   float instance F and at a PARAMETER V, the TensorCore's buffer contents when the region is entered.
   The region has five windows: windows 0, 1, 2 read blocks of ONE array (main_v2), windows 3 and 4 are written back.
   Stated here: each window's block at a grid point (iblk1); what the body leaves in each output window's buffer as
   a function of the three input blocks (out1_3, out1_4); the body's triple on whole staging memrefs
   (sound_kernel1); the pipeline's proof data (dat1), which holds the one input array in three disjoint shares,
   one per input window; and the body obligation at every grid point (body_obligation1). -/
import proofs.«400691_j29222957482045_3_alg».proof.Proof.Gen.Kernel.Launch
import proofs.«400691_j29222957482045_3_alg».proof.Proof.Gen.Kernel.Skeleton
import proofs.«400691_j29222957482045_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is looked at once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 1: custom_call 1, cc1_kernel (pipeline cfg1), at the entry contents V -/

/-! ## The windows' blocks -/

/-- Window w's block at grid point t: the rectangle of the window's array that the window's index map selects
    at t, read off the array's contents at region entry (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every grid point, for ANY proof data whose
    array is V's (hA) and whose body leaves the block in place (hafter). The window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every grid point, fetched there or not: the
    window is fetched only where the innermost grid coordinate is 0, and between two fetches its block index does
    not move, so the block fetched earlier is the block of the point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every grid point, fetched there or not (as
    for window 1: fetched only where the innermost grid coordinate is 0, its block index constant in between). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a 1x256x128 buffer: the rectangle the body loads of window 0's buffer. -/
abbrev r1_0 : Rect S1x256x128 := Rect.unit (s := S1x256x128) ![0, 0, 0] S1x256x128.size inb_S1x256x128_S1x256x128_0_0_0
/-- The whole of a 1x2048x128 buffer: the rectangle the body loads of window 1's and of window 2's buffer. -/
abbrev r1_1 : Rect S1x2048x128 := Rect.unit (s := S1x2048x128) ![0, 0, 0] S1x2048x128.size inb_S1x2048x128_S1x2048x128_0_0_0
/-- The whole of a 1x256x128 buffer: the rectangle the body stores into window 3's buffer. -/
abbrev r1_3 : Rect S1x256x128 := Rect.unit (s := S1x256x128) ![0, 0, 0] S1x256x128.size inb_S1x256x128_S1x256x128_0_0_0
/-- The whole of a 1x1x256x2048 buffer: the rectangle the body stores into window 4's buffer. -/
abbrev r1_4 : Rect S1x1x256x2048 := Rect.unit (s := S1x1x256x2048) ![0, 0, 0, 0] S1x1x256x2048.size inb_S1x1x256x2048_S1x1x256x2048_0_0_0_0

/-! ## What the body leaves in each output window's buffer -/

/-- Window 4's buffer after the body, from the blocks of input windows 0 and 1: one whole-buffer store of the
    row-wise softmax of the scaled product of block 0 with the transpose of block 1 (payload k1_pay2). -/
def out1_4 (x0 : Vec F S1x256x128 .bf16) (x1 : Vec F S1x2048x128 .bf16) : Vec F S1x1x256x2048 .f32 :=
  View.canon [⟨r1_4, k1_pay2 (View.ld x0 r1_0) (View.ld x1 r1_1)⟩]

/-- Window 3's buffer after the body, from the three input blocks: one whole-buffer store of the product of the
    softmax weights (of blocks 0 and 1) with block 2 (payload k1_pay3). -/
def out1_3 (x0 : Vec F S1x256x128 .bf16) (x1 x2 : Vec F S1x2048x128 .bf16) : Vec F S1x256x128 .f32 :=
  View.canon [⟨r1_3, k1_pay3 (View.ld x0 r1_0) (View.ld x1 r1_1) (View.ld x2 r1_1)⟩]

/-- The single store into window 3's buffer is of the whole buffer, so every index lies in it. -/
theorem cover1_3 (p0 : Vec F S1x256x128 .f32) (y : S1x256x128.Idx) :
    ∃ pc ∈ ([⟨r1_3, p0⟩] : List (View.Piece (Elt F) S1x256x128 .f32)), y ∈ pc.1.set :=
  View.cover_of_tiled [⟨r1_3, p0⟩] S1x256x128.size (by rfl) y

/-- The single store into window 4's buffer is of the whole buffer, so every index lies in it. -/
theorem cover1_4 (p0 : Vec F S1x1x256x2048 .f32) (y : S1x1x256x2048.Idx) :
    ∃ pc ∈ ([⟨r1_4, p0⟩] : List (View.Piece (Elt F) S1x1x256x2048 .f32)), y ∈ pc.1.set :=
  View.cover_of_tiled [⟨r1_4, p0⟩] S1x1x256x2048.size (by rfl) y

/-! ## The body's triple -/

set_option maxHeartbeats 1000000 in
/-- The kernel body at any grid point i, on whole staging memrefs — the three inputs' at contents x0, x1, x2, the two
    outputs' at anything — runs to the continuation holding the inputs' memrefs as they were, window 3's at
    out1_3 x0 x1 x2 and window 4's at out1_4 x0 x1. The body stores into window 4's buffer first, then window 3's. -/
theorem sound_kernel1 (c : Dev nD) (E : Set ℕ) (i : grid1.Coords)
    (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x256x128 .f32) (harg6 : arg6.IsWhole)
    (arg7 : Memref sig .tc .vmem S1x1x256x2048 .f32) (harg7 : arg7.IsWhole)
    (x0 : Vec F S1x256x128 .bf16) (x1 x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2) ∗ owns (c : Thread nD τ) arg7 fullShare (out1_4 x0 x1)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline cfg1 on core c: the arrays as the region finds them (V); after the body at point t
    each input's buffer at its block, window 3's at out1_3 and window 4's at out1_4 of the input blocks; the
    invariant the untouched rest (the scoped buffers outside the pipeline and the generator register); nothing
    owed. The one array the three input windows read is held in three disjoint shares whose sum is the full
    share: the left half for window 0, the left half of the right half for window 1, the right half of the right
    half for window 2. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The share of the common input array held for window 0: the left half of the full share. -/
theorem q1_0 (c : Dev nD) : (dat1 V c).q 0 = fullShare.left := by dsimp only [dat1]
/-- The share held for window 1: the left half of the right half. -/
theorem q1_1 (c : Dev nD) : (dat1 V c).q 1 = fullShare.right.left := by dsimp only [dat1]
/-- The share held for window 2: the right half of the right half. -/
theorem q1_2 (c : Dev nD) : (dat1 V c).q 2 = fullShare.right.right := by dsimp only [dat1]

/-- What the body leaves in window 0's buffer: its block. -/
theorem after1_0 (c : Dev nD) (t : Fin cfg1.N) : (dat1 V c).after 0 t = iblk1 V c 0 t := by dsimp only [dat1]
/-- What the body leaves in window 1's buffer: its block. -/
theorem after1_1 (c : Dev nD) (t : Fin cfg1.N) : (dat1 V c).after 1 t = iblk1 V c 1 t := by dsimp only [dat1]
/-- What the body leaves in window 2's buffer: its block. -/
theorem after1_2 (c : Dev nD) (t : Fin cfg1.N) : (dat1 V c).after 2 t = iblk1 V c 2 t := by dsimp only [dat1]
/-- What the body leaves in window 3's buffer: out1_3 of the three input blocks. -/
theorem after1_3 (c : Dev nD) (t : Fin cfg1.N) : (dat1 V c).after 3 t = out1_3 (iblk1 V c 0 t) (iblk1 V c 1 t) (iblk1 V c 2 t) := by dsimp only [dat1]
/-- What the body leaves in window 4's buffer: out1_4 of the blocks of windows 0 and 1. -/
theorem after1_4 (c : Dev nD) (t : Fin cfg1.N) : (dat1 V c).after 4 t = out1_4 (iblk1 V c 0 t) (iblk1 V c 1 t) := by dsimp only [dat1]

/-- Window 0's current staging buffer holds its block at every point. -/
theorem before1_0 (c : Dev nD) (t : Fin cfg1.N) (d) : (dat1 V c).before 0 t d = iblk1 V c 0 t :=
  before1_0_of V (dat1 V c) (A_eq1 V c 0) (after1_0 V c) t d
/-- Window 1's current staging buffer holds its block at every point, fetched there or not. -/
theorem before1_1 (c : Dev nD) (t : Fin cfg1.N) (d) : (dat1 V c).before 1 t d = iblk1 V c 1 t :=
  before1_1_of V (dat1 V c) (A_eq1 V c 1) (after1_1 V c) t d
/-- Window 2's current staging buffer holds its block at every point, fetched there or not. -/
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body returns at point t: the invariant and what the core owes at the next point, and each window's
    current staging buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline cfg1 at every grid point, for the proof data dat1. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KShared1.lean ====
/-
  The second region reads ONE array, the projection, through three input windows (queries, keys, values) and writes
  two arrays. The pipeline holds each input window's array at a share of its own, so at the region's entry the
  projection's buffer, held whole, is dealt to the three windows as the left half, the left half of the right half and
  the right half of the right half of the full share; at the exit the three parts, all still at the entry contents,
  are put together again. The two result arrays are held whole throughout.
-/
import proofs.«400691_j29222957482045_3_alg».proof.Proof.Gen.Kernel.Launch
import Idealize.ShloMosaic.Lib.Pipeline.RegionsLoop
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The distinct buffers behind the second region's five windows are three: the projection and the two results. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3_0) ↦{fullShare} V main_v3_0)
          ∗ (((c : Thread nD τ).loc main_v3_1) ↦{fullShare} V main_v3_1)) := by
  unfold Pipeline.arrBufs
  exact bigSep_eq_bigSepL_of_eq [main_v2, main_v3_0, main_v3_1] (by decide) (by decide) _

variable {c : Dev nD} (dat : Dat τ (Elt F) Unit ℕ (UR sig nD τ) ℕ cfg1 c)

/-- The pipeline's arrays window by window: the projection at the three input windows' shares, the results whole. -/
theorem arrays1_eq (hq0 : dat.q 0 = fullShare.left) (hq1 : dat.q 1 = fullShare.right.left) (hq2 : dat.q 2 = fullShare.right.right)
    (G : (w : Fin cfg1.W) → Buf (Elt F) ((cfg1.win w).arr.view.loc (c : Thread nD τ))) :
    (dat.arrays G : sProp 𝕄)
      = iprop((((c : Thread nD τ).loc main_v2) ↦{fullShare.left} G 0) ∗ (((c : Thread nD τ).loc main_v2) ↦{fullShare.right.left} G 1)
          ∗ (((c : Thread nD τ).loc main_v2) ↦{fullShare.right.right} G 2) ∗ (((c : Thread nD τ).loc main_v3_0) ↦{fullShare} G 3)
          ∗ (((c : Thread nD τ).loc main_v3_1) ↦{fullShare} G 4)) := by
  have h : (dat.arrays G : sProp 𝕄) = bigSep Finset.univ fun w : Fin cfg1.W =>
      ((((c : Thread nD τ).loc (Pipeline.arrRef spec1 w)) ↦{dat.share w} G w : sProp 𝕄)) := by
    unfold Dat.arrays
    exact bigSep_congr fun w _ => by rw [(arr_whole1 w).set_eq_univ]
  rw [h, bigSep_W1]
  rw [show dat.share 0 = dat.q 0 from rfl, show dat.share 1 = dat.q 1 from rfl, show dat.share 2 = dat.q 2 from rfl,
    show dat.share 3 = fullShare from rfl, show dat.share 4 = fullShare from rfl, hq0, hq1, hq2]

/-- ENTRY: a core's unscoped buffers at contents `V` are the second region's arrays — the projection's buffer dealt
    to its three readers — and the unscoped rest. -/
theorem arrays1_of_unscopedBufs (hq0 : dat.q 0 = fullShare.left) (hq1 : dat.q 1 = fullShare.right.left) (hq2 : dat.q 2 = fullShare.right.right)
    (V : (b : Ref sig .tc) → Buf (Elt F) ((c : Thread nD τ).loc b))
    (G : (w : Fin cfg1.W) → Buf (Elt F) ((cfg1.win w).arr.view.loc (c : Thread nD τ)))
    (hG0 : G 0 = V main_v2) (hG1 : G 1 = V main_v2) (hG2 : G 2 = V main_v2) (hG3 : G 3 = V main_v3_0) (hG4 : G 4 = V main_v3_1) :
    (unscopedBufs (Ix := Unit) (Name := ℕ) (U := UR sig nD τ) (Lvl := ℕ) c V : sProp 𝕄)
      ⊢ iprop(dat.arrays G ∗ Pipeline.unscopedRest (Ix := Unit) (Name := ℕ) (U := UR sig nD τ) (Lvl := ℕ) spec1 c V) := by
  have hs : (unscopedBufs (Ix := Unit) (Name := ℕ) (U := UR sig nD τ) (Lvl := ℕ) c V : sProp 𝕄)
      = iprop((Pipeline.arrBufs spec1 c V : sProp 𝕄) ∗ Pipeline.unscopedRest spec1 c V) :=
    Pipeline.unscopedBufs_split₀ cfgs 1 winFacts₀1.arr_unscoped c V
  rw [hs, arrBufs1_eq, arrays1_eq dat hq0 hq1 hq2, hG0, hG1, hG2, hG3, hG4]
  iintro ⟨⟨H2, H30, H31⟩, Hrest⟩
  ihave H2' := (pointsTo_share (PosShare.mem_left_op_right fullShare)).1 $$ H2
  icases H2' with ⟨Hl, Hr⟩
  ihave Hr' := (pointsTo_share (PosShare.mem_left_op_right fullShare.right)).1 $$ Hr
  icases Hr' with ⟨Hrl, Hrr⟩
  isplitr [Hrest]
  · isplitl [Hl]; · iexact Hl
    isplitl [Hrl]; · iexact Hrl
    isplitl [Hrr]; · iexact Hrr
    isplitl [H30]; · iexact H30
    iexact H31
  · iexact Hrest

/-- EXIT: the second region's arrays — the projection's three parts at one contents, the results at what the
    write-backs left — and the unscoped rest at `V` are the core's unscoped buffers at any `V'` that has those contents
    at the three buffers and agrees with `V` elsewhere. -/
theorem unscopedBufs_of_arrays1 (hq0 : dat.q 0 = fullShare.left) (hq1 : dat.q 1 = fullShare.right.left) (hq2 : dat.q 2 = fullShare.right.right)
    (V V' : (b : Ref sig .tc) → Buf (Elt F) ((c : Thread nD τ).loc b))
    (G : (w : Fin cfg1.W) → Buf (Elt F) ((cfg1.win w).arr.view.loc (c : Thread nD τ)))
    (hG0 : G 0 = V' main_v2) (hG1 : G 1 = V' main_v2) (hG2 : G 2 = V' main_v2) (hG3 : G 3 = V' main_v3_0) (hG4 : G 4 = V' main_v3_1)
    (hrest : ∀ b, b ∉ Finset.univ.image (Pipeline.arrRef spec1) → V' b = V b) :
    iprop(dat.arrays G ∗ Pipeline.unscopedRest (Ix := Unit) (Name := ℕ) (U := UR sig nD τ) (Lvl := ℕ) spec1 c V)
      ⊢ (unscopedBufs (Ix := Unit) (Name := ℕ) (U := UR sig nD τ) (Lvl := ℕ) c V' : sProp 𝕄) := by
  have hs : (unscopedBufs (Ix := Unit) (Name := ℕ) (U := UR sig nD τ) (Lvl := ℕ) c V' : sProp 𝕄)
      = iprop((Pipeline.arrBufs spec1 c V' : sProp 𝕄) ∗ Pipeline.unscopedRest spec1 c V') :=
    Pipeline.unscopedBufs_split₀ cfgs 1 winFacts₀1.arr_unscoped c V'
  rw [hs, arrBufs1_eq, arrays1_eq dat hq0 hq1 hq2, hG0, hG1, hG2, hG3, hG4]
  have hR : (Pipeline.unscopedRest (Ix := Unit) (Name := ℕ) (U := UR sig nD τ) (Lvl := ℕ) spec1 c V : sProp 𝕄)
      = Pipeline.unscopedRest spec1 c V' := by
    unfold Pipeline.unscopedRest
    exact bigSep_congr fun b hb => by rw [hrest b (Finset.mem_sdiff.mp hb).2]
  rw [hR]
  iintro ⟨⟨Hl, Hrl, Hrr, H30, H31⟩, Hrest⟩
  isplitr [Hrest]
  · isplitl [Hl Hrl Hrr]
    · iapply (pointsTo_share (PosShare.mem_left_op_right fullShare)).2
      isplitl [Hl]; · iexact Hl
      iapply (pointsTo_share (PosShare.mem_left_op_right fullShare.right)).2
      isplitl [Hrl]; · iexact Hrl
      iexact Hrr
    isplitl [H30]; · iexact H30
    iexact H31
  · iexact Hrest

end Cert.Kernel.Hand

end
-- ==== Proof.KRun.lean ====
/-
  The run of the kernel program: a reshape, the projection region, a reshape, the attention region. Between two items
  core `c` holds every unscoped buffer whole at a known valuation: the launch memory, then what the first reshape writes,
  then the projection region's result array at what its write-backs leave, then what the second reshape writes, then the
  attention region's two result arrays at what its write-backs leave. No item writes an argument array, so each is read
  back unchanged at the end, and the two results are read at the last valuation.
-/
import proofs.«400691_j29222957482045_3_alg».proof.Proof.KRegion0
import proofs.«400691_j29222957482045_3_alg».proof.Proof.KRegion1
import proofs.«400691_j29222957482045_3_alg».proof.Proof.KShared1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first reshape. -/
abbrev W1 : Dev nD → Valuation τ sig (Elt F) := fun c => StableHlo.after hostOps0 (W0 m ρ c)
/-- The same read at the TensorCore's references: what the projection region finds. -/
abbrev V1 : (c : Dev nD) → (b : Ref sig .tc) → Buf (Elt F) ((c : Thread nD τ).loc b) := fun c b => W1 m ρ c b
/-- After the projection region: its arrays at what the write-backs leave, every other buffer as found. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second reshape. -/
abbrev W3 : Dev nD → Valuation τ sig (Elt F) := fun c => StableHlo.after hostOps1 (W2 m ρ c)
/-- The same read at the TensorCore's references: what the attention region finds. -/
abbrev V3 : (c : Dev nD) → (b : Ref sig .tc) → Buf (Elt F) ((c : Thread nD τ).loc b) := fun c b => W3 m ρ c b
/-- After the attention region: its two result arrays at what the write-backs leave, every other buffer as found
    (the projection, which it only reads, among them). -/
def W4 (c : Dev nD) : Valuation τ sig (Elt F) :=
  Function.update (Function.update (W3 m ρ c) (Proc.devRef .tc main_v3_0) ((dat1 (V3 m ρ) c).arrAt 3 cfg1.N))
    (Proc.devRef .tc main_v3_1) ((dat1 (V3 m ρ) c).arrAt 4 cfg1.N)
abbrev V4 : (c : Dev nD) → (b : Ref sig .tc) → Buf (Elt F) ((c : Thread nD τ).loc b) := fun c b => W4 m ρ c b
theorem W4_v3_1 (c : Dev nD) : W4 m ρ c (Proc.devRef .tc main_v3_1) = (dat1 (V3 m ρ) c).arrAt 4 cfg1.N := by
  unfold W4; exact Function.update_self ..
theorem W4_v3_0 (c : Dev nD) : W4 m ρ c (Proc.devRef .tc main_v3_0) = (dat1 (V3 m ρ) c).arrAt 3 cfg1.N := by
  unfold W4
  rw [Function.update_of_ne (StableHlo.devRef_ne_of_ne (by decide) : (Proc.devRef .tc main_v3_0 : DevRef τ sig) ≠ Proc.devRef .tc main_v3_1)]
  exact Function.update_self ..
theorem W4_of_ne (c : Dev nD) (b : Ref sig .tc) (h0 : b ≠ main_v3_0) (h1 : b ≠ main_v3_1) :
    W4 m ρ c (Proc.devRef .tc b) = W3 m ρ c (Proc.devRef .tc b) := by
  unfold W4
  rw [Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]

/-! ## No item writes an argument -/

theorem W1_of (c : Dev nD) (b : Ref sig .tc) (h : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))
theorem W3_of (c : Dev nD) (b : Ref sig .tc) (h : b ≠ main_v2) : W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide) (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide) (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide) (by decide)
    _ = W2 m ρ c (Proc.devRef .tc main_arg2) := W3_of m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's arrays at its exit, window by window: the projection as found (an input array is never
    written), the two results at what the write-backs leave. -/
theorem hG1_in (c : Dev nD) (w : Fin cfg1.W) (hw : (cfg1.win w).isOut = false) :
    (dat1 (V3 m ρ) c).arrAt w cfg1.N = V3 m ρ c (Pipeline.arrRef spec1 w) :=
  ((dat1 (V3 m ρ) c).arrAt_in w hw _).trans (A_eq1 (V3 m ρ) c w)

theorem hrest1 (c : Dev nD) : ∀ b, b ∉ Finset.univ.image (Pipeline.arrRef spec1) → V4 m ρ c b = V3 m ρ c b :=
  fun b hb => W4_of_ne m ρ c b
    (fun e => hb (Finset.mem_image.mpr ⟨3, Finset.mem_univ _, e.symm⟩))
    (fun e => hb (Finset.mem_image.mpr ⟨4, Finset.mem_univ _, e.symm⟩))

set_option backward.isDefEq.respectTransparency.types false in
/-- The attention region: entered from every unscoped buffer at `W3`, left at `W4`; the projection's buffer is dealt
    to its three reading windows at the entry and put together again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays1_of_unscopedBufs (pdats m ρ 1 c) (q1_0 (V3 m ρ) c) (q1_1 (V3 m ρ) c) (q1_2 (V3 m ρ) c) (V3 m ρ c)
      ((pdats m ρ 1 c).arrAt · 0) (A_eq1 (V3 m ρ) c 0) (A_eq1 (V3 m ρ) c 1) (A_eq1 (V3 m ρ) c 2) (A_eq1 (V3 m ρ) c 3) (A_eq1 (V3 m ρ) c 4)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (pdats m ρ 1 c) (q1_0 (V3 m ρ) c) (q1_1 (V3 m ρ) c) (q1_2 (V3 m ρ) c) (V3 m ρ c) (V4 m ρ c)
      ((pdats m ρ 1 c).arrAt · cfg1.N)
      ((hG1_in m ρ c 0 rfl).trans (W4_of_ne m ρ c main_v2 (by decide) (by decide)).symm)
      ((hG1_in m ρ c 1 rfl).trans (W4_of_ne m ρ c main_v2 (by decide) (by decide)).symm)
      ((hG1_in m ρ c 2 rfl).trans (W4_of_ne m ρ c main_v2 (by decide) (by decide)).symm)
      (W4_v3_0 m ρ c).symm (W4_v3_1 m ρ c).symm (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting; at the end the attention output and the probabilities hold what the attention region's write-backs leave
    and the three arguments are as launched. -/
theorem run : θ_run defs (onTc (τ := τ) (main (F := F))) ⟨m, fun _ => 0, ρ⟩ (fun r => ∀ c : Dev nD,
      r.2.mem ((c.tc : Thread nD τ).loc main_v3_0) = (dat1 (V3 m ρ) c).arrAt 3 cfg1.N
      ∧ r.2.mem ((c.tc : Thread nD τ).loc main_v3_1) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3_0 (by decide))).trans (W4_v3_0 m ρ c),
       (h c _ (mem_uc main_v3_1 (by decide))).trans (W4_v3_1 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Kernel.Hand

end
-- ==== Proof.KIRegion0.lean ====
import proofs.«400691_j29222957482045_3_alg».proof.Proof.Gen.KernelIdeal.Launch
import proofs.«400691_j29222957482045_3_alg».proof.Proof.Gen.KernelIdeal.Skeleton
import proofs.«400691_j29222957482045_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body half of region 0 of the idealized kernel program (its first TensorCore call, a pipeline of four
    windows over a 2 × 24 grid): at every grid point the body reads the three input windows' blocks and leaves in
    the output window's buffer the rounded product-plus-bias of those blocks. Everything is stated for an arbitrary
    float instance and relative to arbitrary buffer contents \`V\` at the moment the region is entered. -/

-- deciding membership in a rectangle with axes of length 2048 recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when region 0 is entered; every statement below is relative to it
variable (V : (c : Dev nD) → (b : Ref sig .tc) → Buf (Elt F) ((c : Thread nD τ).loc b))

/-! ## The windows' blocks -/

/-- The block of window \`w\` at grid point \`t\`: the sub-array of the window's array, with the array at its
    region-entry contents \`V\`, that the window's index map selects at \`t\`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the 2048 × 2048 left factor, whose block index depends on the first grid coordinate only, so
    that it is transferred once per 24 points): for any proof data whose array 0 is \`V\`'s and whose body leaves the
    block untouched, the buffer the body is handed at point \`t\` holds the block at \`t\`, whether or not a transfer
    happened at \`t\` — where none did the block index is the previous point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the 2048 × 256 right factor): under the same two hypotheses on the proof data, the buffer
    handed to the body at point \`t\` holds the window's block at \`t\`. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the length-256 bias): under the same two hypotheses on the proof data, the buffer handed to
    the body at point \`t\` holds the window's block at \`t\`. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- The whole of a 2048 × 2048 buffer: origin (0, 0), full extent. -/
abbrev r0_0 : Rect S2048x2048 := Rect.unit (s := S2048x2048) ![0, 0] S2048x2048.size inb_S2048x2048_S2048x2048_0_0
/-- The whole of a 2048 × 256 buffer, as the second load reads it. -/
abbrev r0_1 : Rect S2048x256 := Rect.unit (s := S2048x256) ![0, 0] S2048x256.size inb_S2048x256_S2048x256_0_0
/-- The whole of a length-256 buffer. -/
abbrev r0_2 : Rect S256 := Rect.unit (s := S256) ![0] S256.size inb_S256_S256_0
/-- The whole of a 2048 × 256 buffer, as the store writes it. -/
abbrev r0_3 : Rect S2048x256 := Rect.unit (s := S2048x256) ![0, 0] S2048x256.size inb_S2048x256_S2048x256_0_0

/-! ## What the body leaves in the output window's buffer -/

/-- The contents of the output buffer after the body, as a function of the three input buffers' contents: the
    single store's payload — the product of the two factors rounded to bf16, accumulated in f32, plus the bias
    along rows, rounded to bf16 — laid over the whole buffer. -/
def out0_3 (x0 : Vec F S2048x2048 .f32) (x1 : Vec F S2048x256 .f32) (x2 : Vec F S256 .f32) : Vec F S2048x256 .bf16 :=
  View.canon [⟨r0_3, k0_pay1 (View.ld x0 r0_0) (View.ld x1 r0_1) (View.ld x2 r0_2)⟩]

/-- The single store's rectangle is the whole 2048 × 256 shape, so every index of the buffer lies in it. -/
theorem cover0_3 (p0 : Vec F S2048x256 .bf16) (y : S2048x256.Idx) :
    ∃ pc ∈ ([⟨r0_3, p0⟩] : List (View.Piece (Elt F) S2048x256 .bf16)), y ∈ pc.1.set :=
  View.cover_of_tiled [⟨r0_3, p0⟩] S2048x256.size (by rfl) y

/-! ## The body's triple -/

set_option maxHeartbeats 1000000 in
/-- The kernel function on four whole memrefs, at any grid point: owning the three inputs in full at read contents
    \`x0\`, \`x1\`, \`x2\` and the output in full at any contents, it runs to a state where the inputs read as before and the
    output reads \`out0_3 x0 x1 x2\`. The function equals its sequence of three input loads, one load of the output
    (whose value is not used) and one whole-buffer store, which is executed step by step. -/
theorem sound_kernel0 (c : Dev nD) (E : Set ℕ) (i : grid0.Coords)
    (arg2 : Memref sig .tc .vmem S2048x2048 .f32) (harg2 : arg2.IsWhole) (arg3 : Memref sig .tc .vmem S2048x256 .f32) (harg3 : arg3.IsWhole)
    (arg4 : Memref sig .tc .vmem S256 .f32) (harg4 : arg4.IsWhole) (arg5 : Memref sig .tc .vmem S2048x256 .bf16) (harg5 : arg5.IsWhole)
    (x0 : Vec F S2048x2048 .f32) (x1 : Vec F S2048x256 .f32) (x2 : Vec F S256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core \`c\`: each window's array at its region-entry contents \`V\`; after the body
    at point \`t\`, each input buffer at its block there and the output buffer at \`out0_3\` of the three input blocks;
    the invariant that of a body touching nothing but its windows; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's array for window \`w\` is the region-entry contents of that window's array. -/
theorem A_eq0 (c : Dev nD) (w : Fin cfg0.W) : (dat0 V c).A w = V c (Pipeline.arrRef spec0 w) := by
  dsimp only [dat0]

/-- After the body at \`t\`, input buffer 0 holds window 0's block at \`t\`. -/
theorem after0_0 (c : Dev nD) (t : Fin cfg0.N) : (dat0 V c).after 0 t = iblk0 V c 0 t := by dsimp only [dat0]
/-- After the body at \`t\`, input buffer 1 holds window 1's block at \`t\`. -/
theorem after0_1 (c : Dev nD) (t : Fin cfg0.N) : (dat0 V c).after 1 t = iblk0 V c 1 t := by dsimp only [dat0]
/-- After the body at \`t\`, input buffer 2 holds window 2's block at \`t\`. -/
theorem after0_2 (c : Dev nD) (t : Fin cfg0.N) : (dat0 V c).after 2 t = iblk0 V c 2 t := by dsimp only [dat0]
/-- After the body at \`t\`, the output buffer holds \`out0_3\` of the three input blocks at \`t\`. -/
theorem after0_3 (c : Dev nD) (t : Fin cfg0.N) :
    (dat0 V c).after 3 t = out0_3 (iblk0 V c 0 t) (iblk0 V c 1 t) (iblk0 V c 2 t) := by dsimp only [dat0]

/-- Before the body at \`t\`, input buffer 0 holds window 0's block at \`t\`. -/
theorem before0_0 (c : Dev nD) (t : Fin cfg0.N) (d) : (dat0 V c).before 0 t d = iblk0 V c 0 t :=
  before0_0_of V (dat0 V c) (A_eq0 V c 0) (after0_0 V c) t d
/-- Before the body at \`t\`, input buffer 1 holds window 1's block at \`t\`. -/
theorem before0_1 (c : Dev nD) (t : Fin cfg0.N) (d) : (dat0 V c).before 1 t d = iblk0 V c 1 t :=
  before0_1_of V (dat0 V c) (A_eq0 V c 1) (after0_1 V c) t d
/-- Before the body at \`t\`, input buffer 2 holds window 2's block at \`t\`. -/
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- The precondition of the body at point \`t\`: the invariant and the debt as they stand before \`t\`, and each of the
    four current staging memrefs owned in full at what the proof data says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- The postcondition of the body at point \`t\`: the invariant and the debt as they stand after \`t\`, and each of the
    four staging memrefs owned in full at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point \`t\` takes its precondition to its postcondition: the three input memrefs hold their
    blocks (\`before0_0\`, \`before0_1\`, \`before0_2\`), so the kernel function's triple applies at those blocks; the
    invariant and the debt are the same before and after and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0 on core \`c\` at the proof data \`dat0\`: the conjunction over the four windows
    written out one by one, then the triple above at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/- REGION 1 of the idealized kernel program (custom_call 1, kernel function cc1_kernel, pipeline cfg1), at any
   float instance F and at a PARAMETER V, the TensorCore's buffer contents when the region is entered.
   The region has five windows: windows 0, 1, 2 read blocks of ONE array (main_v2), windows 3 and 4 are written back.
   Stated here: each window's block at a grid point (iblk1); what the body leaves in each output window's buffer as
   a function of the three input blocks (out1_3, out1_4); the body's triple on whole staging memrefs
   (sound_kernel1); the pipeline's proof data (dat1), which holds the one input array in three disjoint shares,
   one per input window; and the body obligation at every grid point (body_obligation1). -/
import proofs.«400691_j29222957482045_3_alg».proof.Proof.Gen.KernelIdeal.Launch
import proofs.«400691_j29222957482045_3_alg».proof.Proof.Gen.KernelIdeal.Skeleton
import proofs.«400691_j29222957482045_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is looked at once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 1: custom_call 1, cc1_kernel (pipeline cfg1), at the entry contents V -/

/-! ## The windows' blocks -/

/-- Window w's block at grid point t: the rectangle of the window's array that the window's index map selects
    at t, read off the array's contents at region entry (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every grid point, for ANY proof data whose
    array is V's (hA) and whose body leaves the block in place (hafter). The window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every grid point, fetched there or not: the
    window is fetched only where the innermost grid coordinate is 0, and between two fetches its block index does
    not move, so the block fetched earlier is the block of the point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every grid point, fetched there or not (as
    for window 1: fetched only where the innermost grid coordinate is 0, its block index constant in between). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a 1x256x128 buffer: the rectangle the body loads of window 0's buffer. -/
abbrev r1_0 : Rect S1x256x128 := Rect.unit (s := S1x256x128) ![0, 0, 0] S1x256x128.size inb_S1x256x128_S1x256x128_0_0_0
/-- The whole of a 1x2048x128 buffer: the rectangle the body loads of window 1's and of window 2's buffer. -/
abbrev r1_1 : Rect S1x2048x128 := Rect.unit (s := S1x2048x128) ![0, 0, 0] S1x2048x128.size inb_S1x2048x128_S1x2048x128_0_0_0
/-- The whole of a 1x256x128 buffer: the rectangle the body stores into window 3's buffer. -/
abbrev r1_3 : Rect S1x256x128 := Rect.unit (s := S1x256x128) ![0, 0, 0] S1x256x128.size inb_S1x256x128_S1x256x128_0_0_0
/-- The whole of a 1x1x256x2048 buffer: the rectangle the body stores into window 4's buffer. -/
abbrev r1_4 : Rect S1x1x256x2048 := Rect.unit (s := S1x1x256x2048) ![0, 0, 0, 0] S1x1x256x2048.size inb_S1x1x256x2048_S1x1x256x2048_0_0_0_0

/-! ## What the body leaves in each output window's buffer -/

/-- Window 4's buffer after the body, from the blocks of input windows 0 and 1: one whole-buffer store of the
    row-wise softmax of the scaled product of block 0 with the transpose of block 1 (payload k1_pay2). -/
def out1_4 (x0 : Vec F S1x256x128 .bf16) (x1 : Vec F S1x2048x128 .bf16) : Vec F S1x1x256x2048 .f32 :=
  View.canon [⟨r1_4, k1_pay2 (View.ld x0 r1_0) (View.ld x1 r1_1)⟩]

/-- Window 3's buffer after the body, from the three input blocks: one whole-buffer store of the product of the
    softmax weights (of blocks 0 and 1) with block 2 (payload k1_pay3). -/
def out1_3 (x0 : Vec F S1x256x128 .bf16) (x1 x2 : Vec F S1x2048x128 .bf16) : Vec F S1x256x128 .f32 :=
  View.canon [⟨r1_3, k1_pay3 (View.ld x0 r1_0) (View.ld x1 r1_1) (View.ld x2 r1_1)⟩]

/-- The single store into window 3's buffer is of the whole buffer, so every index lies in it. -/
theorem cover1_3 (p0 : Vec F S1x256x128 .f32) (y : S1x256x128.Idx) :
    ∃ pc ∈ ([⟨r1_3, p0⟩] : List (View.Piece (Elt F) S1x256x128 .f32)), y ∈ pc.1.set :=
  View.cover_of_tiled [⟨r1_3, p0⟩] S1x256x128.size (by rfl) y

/-- The single store into window 4's buffer is of the whole buffer, so every index lies in it. -/
theorem cover1_4 (p0 : Vec F S1x1x256x2048 .f32) (y : S1x1x256x2048.Idx) :
    ∃ pc ∈ ([⟨r1_4, p0⟩] : List (View.Piece (Elt F) S1x1x256x2048 .f32)), y ∈ pc.1.set :=
  View.cover_of_tiled [⟨r1_4, p0⟩] S1x1x256x2048.size (by rfl) y

/-! ## The body's triple -/

set_option maxHeartbeats 1000000 in
/-- The kernel body at any grid point i, on whole staging memrefs — the three inputs' at contents x0, x1, x2, the two
    outputs' at anything — runs to the continuation holding the inputs' memrefs as they were, window 3's at
    out1_3 x0 x1 x2 and window 4's at out1_4 x0 x1. The body stores into window 4's buffer first, then window 3's. -/
theorem sound_kernel1 (c : Dev nD) (E : Set ℕ) (i : grid1.Coords)
    (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x256x128 .f32) (harg6 : arg6.IsWhole)
    (arg7 : Memref sig .tc .vmem S1x1x256x2048 .f32) (harg7 : arg7.IsWhole)
    (x0 : Vec F S1x256x128 .bf16) (x1 x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2) ∗ owns (c : Thread nD τ) arg7 fullShare (out1_4 x0 x1)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline cfg1 on core c: the arrays as the region finds them (V); after the body at point t
    each input's buffer at its block, window 3's at out1_3 and window 4's at out1_4 of the input blocks; the
    invariant the untouched rest (the scoped buffers outside the pipeline and the generator register); nothing
    owed. The one array the three input windows read is held in three disjoint shares whose sum is the full
    share: the left half for window 0, the left half of the right half for window 1, the right half of the right
    half for window 2. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The share of the common input array held for window 0: the left half of the full share. -/
theorem q1_0 (c : Dev nD) : (dat1 V c).q 0 = fullShare.left := by dsimp only [dat1]
/-- The share held for window 1: the left half of the right half. -/
theorem q1_1 (c : Dev nD) : (dat1 V c).q 1 = fullShare.right.left := by dsimp only [dat1]
/-- The share held for window 2: the right half of the right half. -/
theorem q1_2 (c : Dev nD) : (dat1 V c).q 2 = fullShare.right.right := by dsimp only [dat1]

/-- What the body leaves in window 0's buffer: its block. -/
theorem after1_0 (c : Dev nD) (t : Fin cfg1.N) : (dat1 V c).after 0 t = iblk1 V c 0 t := by dsimp only [dat1]
/-- What the body leaves in window 1's buffer: its block. -/
theorem after1_1 (c : Dev nD) (t : Fin cfg1.N) : (dat1 V c).after 1 t = iblk1 V c 1 t := by dsimp only [dat1]
/-- What the body leaves in window 2's buffer: its block. -/
theorem after1_2 (c : Dev nD) (t : Fin cfg1.N) : (dat1 V c).after 2 t = iblk1 V c 2 t := by dsimp only [dat1]
/-- What the body leaves in window 3's buffer: out1_3 of the three input blocks. -/
theorem after1_3 (c : Dev nD) (t : Fin cfg1.N) : (dat1 V c).after 3 t = out1_3 (iblk1 V c 0 t) (iblk1 V c 1 t) (iblk1 V c 2 t) := by dsimp only [dat1]
/-- What the body leaves in window 4's buffer: out1_4 of the blocks of windows 0 and 1. -/
theorem after1_4 (c : Dev nD) (t : Fin cfg1.N) : (dat1 V c).after 4 t = out1_4 (iblk1 V c 0 t) (iblk1 V c 1 t) := by dsimp only [dat1]

/-- Window 0's current staging buffer holds its block at every point. -/
theorem before1_0 (c : Dev nD) (t : Fin cfg1.N) (d) : (dat1 V c).before 0 t d = iblk1 V c 0 t :=
  before1_0_of V (dat1 V c) (A_eq1 V c 0) (after1_0 V c) t d
/-- Window 1's current staging buffer holds its block at every point, fetched there or not. -/
theorem before1_1 (c : Dev nD) (t : Fin cfg1.N) (d) : (dat1 V c).before 1 t d = iblk1 V c 1 t :=
  before1_1_of V (dat1 V c) (A_eq1 V c 1) (after1_1 V c) t d
/-- Window 2's current staging buffer holds its block at every point, fetched there or not. -/
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body returns at point t: the invariant and what the core owes at the next point, and each window's
    current staging buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline cfg1 at every grid point, for the proof data dat1. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIShared1.lean ====
/-
  The second region reads ONE array, the projection, through three input windows (queries, keys, values) and writes
  two arrays. The pipeline holds each input window's array at a share of its own, so at the region's entry the
  projection's buffer, held whole, is dealt to the three windows as the left half, the left half of the right half and
  the right half of the right half of the full share; at the exit the three parts, all still at the entry contents,
  are put together again. The two result arrays are held whole throughout.
-/
import proofs.«400691_j29222957482045_3_alg».proof.Proof.Gen.KernelIdeal.Launch
import Idealize.ShloMosaic.Lib.Pipeline.RegionsLoop
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The distinct buffers behind the second region's five windows are three: the projection and the two results. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3_0) ↦{fullShare} V main_v3_0)
          ∗ (((c : Thread nD τ).loc main_v3_1) ↦{fullShare} V main_v3_1)) := by
  unfold Pipeline.arrBufs
  exact bigSep_eq_bigSepL_of_eq [main_v2, main_v3_0, main_v3_1] (by decide) (by decide) _

variable {c : Dev nD} (dat : Dat τ (Elt F) Unit ℕ (UR sig nD τ) ℕ cfg1 c)

/-- The pipeline's arrays window by window: the projection at the three input windows' shares, the results whole. -/
theorem arrays1_eq (hq0 : dat.q 0 = fullShare.left) (hq1 : dat.q 1 = fullShare.right.left) (hq2 : dat.q 2 = fullShare.right.right)
    (G : (w : Fin cfg1.W) → Buf (Elt F) ((cfg1.win w).arr.view.loc (c : Thread nD τ))) :
    (dat.arrays G : sProp 𝕄)
      = iprop((((c : Thread nD τ).loc main_v2) ↦{fullShare.left} G 0) ∗ (((c : Thread nD τ).loc main_v2) ↦{fullShare.right.left} G 1)
          ∗ (((c : Thread nD τ).loc main_v2) ↦{fullShare.right.right} G 2) ∗ (((c : Thread nD τ).loc main_v3_0) ↦{fullShare} G 3)
          ∗ (((c : Thread nD τ).loc main_v3_1) ↦{fullShare} G 4)) := by
  have h : (dat.arrays G : sProp 𝕄) = bigSep Finset.univ fun w : Fin cfg1.W =>
      ((((c : Thread nD τ).loc (Pipeline.arrRef spec1 w)) ↦{dat.share w} G w : sProp 𝕄)) := by
    unfold Dat.arrays
    exact bigSep_congr fun w _ => by rw [(arr_whole1 w).set_eq_univ]
  rw [h, bigSep_W1]
  rw [show dat.share 0 = dat.q 0 from rfl, show dat.share 1 = dat.q 1 from rfl, show dat.share 2 = dat.q 2 from rfl,
    show dat.share 3 = fullShare from rfl, show dat.share 4 = fullShare from rfl, hq0, hq1, hq2]

/-- ENTRY: a core's unscoped buffers at contents `V` are the second region's arrays — the projection's buffer dealt
    to its three readers — and the unscoped rest. -/
theorem arrays1_of_unscopedBufs (hq0 : dat.q 0 = fullShare.left) (hq1 : dat.q 1 = fullShare.right.left) (hq2 : dat.q 2 = fullShare.right.right)
    (V : (b : Ref sig .tc) → Buf (Elt F) ((c : Thread nD τ).loc b))
    (G : (w : Fin cfg1.W) → Buf (Elt F) ((cfg1.win w).arr.view.loc (c : Thread nD τ)))
    (hG0 : G 0 = V main_v2) (hG1 : G 1 = V main_v2) (hG2 : G 2 = V main_v2) (hG3 : G 3 = V main_v3_0) (hG4 : G 4 = V main_v3_1) :
    (unscopedBufs (Ix := Unit) (Name := ℕ) (U := UR sig nD τ) (Lvl := ℕ) c V : sProp 𝕄)
      ⊢ iprop(dat.arrays G ∗ Pipeline.unscopedRest (Ix := Unit) (Name := ℕ) (U := UR sig nD τ) (Lvl := ℕ) spec1 c V) := by
  have hs : (unscopedBufs (Ix := Unit) (Name := ℕ) (U := UR sig nD τ) (Lvl := ℕ) c V : sProp 𝕄)
      = iprop((Pipeline.arrBufs spec1 c V : sProp 𝕄) ∗ Pipeline.unscopedRest spec1 c V) :=
    Pipeline.unscopedBufs_split₀ cfgs 1 winFacts₀1.arr_unscoped c V
  rw [hs, arrBufs1_eq, arrays1_eq dat hq0 hq1 hq2, hG0, hG1, hG2, hG3, hG4]
  iintro ⟨⟨H2, H30, H31⟩, Hrest⟩
  ihave H2' := (pointsTo_share (PosShare.mem_left_op_right fullShare)).1 $$ H2
  icases H2' with ⟨Hl, Hr⟩
  ihave Hr' := (pointsTo_share (PosShare.mem_left_op_right fullShare.right)).1 $$ Hr
  icases Hr' with ⟨Hrl, Hrr⟩
  isplitr [Hrest]
  · isplitl [Hl]; · iexact Hl
    isplitl [Hrl]; · iexact Hrl
    isplitl [Hrr]; · iexact Hrr
    isplitl [H30]; · iexact H30
    iexact H31
  · iexact Hrest

/-- EXIT: the second region's arrays — the projection's three parts at one contents, the results at what the
    write-backs left — and the unscoped rest at `V` are the core's unscoped buffers at any `V'` that has those contents
    at the three buffers and agrees with `V` elsewhere. -/
theorem unscopedBufs_of_arrays1 (hq0 : dat.q 0 = fullShare.left) (hq1 : dat.q 1 = fullShare.right.left) (hq2 : dat.q 2 = fullShare.right.right)
    (V V' : (b : Ref sig .tc) → Buf (Elt F) ((c : Thread nD τ).loc b))
    (G : (w : Fin cfg1.W) → Buf (Elt F) ((cfg1.win w).arr.view.loc (c : Thread nD τ)))
    (hG0 : G 0 = V' main_v2) (hG1 : G 1 = V' main_v2) (hG2 : G 2 = V' main_v2) (hG3 : G 3 = V' main_v3_0) (hG4 : G 4 = V' main_v3_1)
    (hrest : ∀ b, b ∉ Finset.univ.image (Pipeline.arrRef spec1) → V' b = V b) :
    iprop(dat.arrays G ∗ Pipeline.unscopedRest (Ix := Unit) (Name := ℕ) (U := UR sig nD τ) (Lvl := ℕ) spec1 c V)
      ⊢ (unscopedBufs (Ix := Unit) (Name := ℕ) (U := UR sig nD τ) (Lvl := ℕ) c V' : sProp 𝕄) := by
  have hs : (unscopedBufs (Ix := Unit) (Name := ℕ) (U := UR sig nD τ) (Lvl := ℕ) c V' : sProp 𝕄)
      = iprop((Pipeline.arrBufs spec1 c V' : sProp 𝕄) ∗ Pipeline.unscopedRest spec1 c V') :=
    Pipeline.unscopedBufs_split₀ cfgs 1 winFacts₀1.arr_unscoped c V'
  rw [hs, arrBufs1_eq, arrays1_eq dat hq0 hq1 hq2, hG0, hG1, hG2, hG3, hG4]
  have hR : (Pipeline.unscopedRest (Ix := Unit) (Name := ℕ) (U := UR sig nD τ) (Lvl := ℕ) spec1 c V : sProp 𝕄)
      = Pipeline.unscopedRest spec1 c V' := by
    unfold Pipeline.unscopedRest
    exact bigSep_congr fun b hb => by rw [hrest b (Finset.mem_sdiff.mp hb).2]
  rw [hR]
  iintro ⟨⟨Hl, Hrl, Hrr, H30, H31⟩, Hrest⟩
  isplitr [Hrest]
  · isplitl [Hl Hrl Hrr]
    · iapply (pointsTo_share (PosShare.mem_left_op_right fullShare)).2
      isplitl [Hl]; · iexact Hl
      iapply (pointsTo_share (PosShare.mem_left_op_right fullShare.right)).2
      isplitl [Hrl]; · iexact Hrl
      iexact Hrr
    isplitl [H30]; · iexact H30
    iexact H31
  · iexact Hrest

end Cert.KernelIdeal.Hand

end
-- ==== Proof.KIRun.lean ====
/-
  The run of the kernel program: a reshape, the projection region, a reshape, the attention region. Between two items
  core `c` holds every unscoped buffer whole at a known valuation: the launch memory, then what the first reshape writes,
  then the projection region's result array at what its write-backs leave, then what the second reshape writes, then the
  attention region's two result arrays at what its write-backs leave. No item writes an argument array, so each is read
  back unchanged at the end, and the two results are read at the last valuation.
-/
import proofs.«400691_j29222957482045_3_alg».proof.Proof.KIRegion0
import proofs.«400691_j29222957482045_3_alg».proof.Proof.KIRegion1
import proofs.«400691_j29222957482045_3_alg».proof.Proof.KIShared1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first reshape. -/
abbrev W1 : Dev nD → Valuation τ sig (Elt F) := fun c => StableHlo.after hostOps0 (W0 m ρ c)
/-- The same read at the TensorCore's references: what the projection region finds. -/
abbrev V1 : (c : Dev nD) → (b : Ref sig .tc) → Buf (Elt F) ((c : Thread nD τ).loc b) := fun c b => W1 m ρ c b
/-- After the projection region: its arrays at what the write-backs leave, every other buffer as found. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second reshape. -/
abbrev W3 : Dev nD → Valuation τ sig (Elt F) := fun c => StableHlo.after hostOps1 (W2 m ρ c)
/-- The same read at the TensorCore's references: what the attention region finds. -/
abbrev V3 : (c : Dev nD) → (b : Ref sig .tc) → Buf (Elt F) ((c : Thread nD τ).loc b) := fun c b => W3 m ρ c b
/-- After the attention region: its two result arrays at what the write-backs leave, every other buffer as found
    (the projection, which it only reads, among them). -/
def W4 (c : Dev nD) : Valuation τ sig (Elt F) :=
  Function.update (Function.update (W3 m ρ c) (Proc.devRef .tc main_v3_0) ((dat1 (V3 m ρ) c).arrAt 3 cfg1.N))
    (Proc.devRef .tc main_v3_1) ((dat1 (V3 m ρ) c).arrAt 4 cfg1.N)
abbrev V4 : (c : Dev nD) → (b : Ref sig .tc) → Buf (Elt F) ((c : Thread nD τ).loc b) := fun c b => W4 m ρ c b
theorem W4_v3_1 (c : Dev nD) : W4 m ρ c (Proc.devRef .tc main_v3_1) = (dat1 (V3 m ρ) c).arrAt 4 cfg1.N := by
  unfold W4; exact Function.update_self ..
theorem W4_v3_0 (c : Dev nD) : W4 m ρ c (Proc.devRef .tc main_v3_0) = (dat1 (V3 m ρ) c).arrAt 3 cfg1.N := by
  unfold W4
  rw [Function.update_of_ne (StableHlo.devRef_ne_of_ne (by decide) : (Proc.devRef .tc main_v3_0 : DevRef τ sig) ≠ Proc.devRef .tc main_v3_1)]
  exact Function.update_self ..
theorem W4_of_ne (c : Dev nD) (b : Ref sig .tc) (h0 : b ≠ main_v3_0) (h1 : b ≠ main_v3_1) :
    W4 m ρ c (Proc.devRef .tc b) = W3 m ρ c (Proc.devRef .tc b) := by
  unfold W4
  rw [Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]

/-! ## No item writes an argument -/

theorem W1_of (c : Dev nD) (b : Ref sig .tc) (h : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))
theorem W3_of (c : Dev nD) (b : Ref sig .tc) (h : b ≠ main_v2) : W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide) (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide) (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide) (by decide)
    _ = W2 m ρ c (Proc.devRef .tc main_arg2) := W3_of m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's arrays at its exit, window by window: the projection as found (an input array is never
    written), the two results at what the write-backs leave. -/
theorem hG1_in (c : Dev nD) (w : Fin cfg1.W) (hw : (cfg1.win w).isOut = false) :
    (dat1 (V3 m ρ) c).arrAt w cfg1.N = V3 m ρ c (Pipeline.arrRef spec1 w) :=
  ((dat1 (V3 m ρ) c).arrAt_in w hw _).trans (A_eq1 (V3 m ρ) c w)

theorem hrest1 (c : Dev nD) : ∀ b, b ∉ Finset.univ.image (Pipeline.arrRef spec1) → V4 m ρ c b = V3 m ρ c b :=
  fun b hb => W4_of_ne m ρ c b
    (fun e => hb (Finset.mem_image.mpr ⟨3, Finset.mem_univ _, e.symm⟩))
    (fun e => hb (Finset.mem_image.mpr ⟨4, Finset.mem_univ _, e.symm⟩))

set_option backward.isDefEq.respectTransparency.types false in
/-- The attention region: entered from every unscoped buffer at `W3`, left at `W4`; the projection's buffer is dealt
    to its three reading windows at the entry and put together again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays1_of_unscopedBufs (pdats m ρ 1 c) (q1_0 (V3 m ρ) c) (q1_1 (V3 m ρ) c) (q1_2 (V3 m ρ) c) (V3 m ρ c)
      ((pdats m ρ 1 c).arrAt · 0) (A_eq1 (V3 m ρ) c 0) (A_eq1 (V3 m ρ) c 1) (A_eq1 (V3 m ρ) c 2) (A_eq1 (V3 m ρ) c 3) (A_eq1 (V3 m ρ) c 4)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (pdats m ρ 1 c) (q1_0 (V3 m ρ) c) (q1_1 (V3 m ρ) c) (q1_2 (V3 m ρ) c) (V3 m ρ c) (V4 m ρ c)
      ((pdats m ρ 1 c).arrAt · cfg1.N)
      ((hG1_in m ρ c 0 rfl).trans (W4_of_ne m ρ c main_v2 (by decide) (by decide)).symm)
      ((hG1_in m ρ c 1 rfl).trans (W4_of_ne m ρ c main_v2 (by decide) (by decide)).symm)
      ((hG1_in m ρ c 2 rfl).trans (W4_of_ne m ρ c main_v2 (by decide) (by decide)).symm)
      (W4_v3_0 m ρ c).symm (W4_v3_1 m ρ c).symm (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting; at the end the attention output and the probabilities hold what the attention region's write-backs leave
    and the three arguments are as launched. -/
theorem run : θ_run defs (onTc (τ := τ) (main (F := F))) ⟨m, fun _ => 0, ρ⟩ (fun r => ∀ c : Dev nD,
      r.2.mem ((c.tc : Thread nD τ).loc main_v3_0) = (dat1 (V3 m ρ) c).arrAt 3 cfg1.N
      ∧ r.2.mem ((c.tc : Thread nD τ).loc main_v3_1) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3_0 (by decide))).trans (W4_v3_0 m ρ c),
       (h c _ (mem_uc main_v3_1 (by decide))).trans (W4_v3_1 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Hand

end
-- ==== Proof.Spec.lean ====
/-
  What the attention layer computes, index by index over the extended reals: the fused projection
  qkv(b, s, e) = Σ_k X(b, s, k) · W(k, e) + bias(e); per batch b and head h the scaled logits
  ℓ(q, k) = (Σ_d qkv(b, q, h·128 + d) · qkv(b, k, 2048 + h·128 + d)) · c, their row softmax
  p(q, k) = exp(ℓ(q, k) − max_k' ℓ(q, k')) / Σ_k' exp(ℓ(q, k') − max_k'' ℓ(q, k'')), and the mixed values
  o(b, q, h·128 + d) = Σ_k p(q, k) · qkv(b, k, 4096 + h·128 + d). The constant c and the two neutral
  elements are kept as the binary words both programs print; a row's maximum is the fold of `max` from the
  word of −∞ over the row.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shapes of the three arguments, of the projection and of the two results. -/
abbrev SX : Shape := ⟨3, ![2, 2048, 2048]⟩
abbrev SW : Shape := ⟨2, ![2048, 6144]⟩
abbrev SB : Shape := ⟨1, ![6144]⟩
abbrev SQ : Shape := ⟨3, ![2, 2048, 6144]⟩
abbrev SS : Shape := ⟨4, ![2, 16, 2048, 2048]⟩

/-- The projection's column that holds lane `d` of head `h` in chunk `j` (0: queries, 1: keys, 2: values). -/
def col (j : Fin 3) (h : Fin 16) (d : Fin 128) : Fin 6144 := ⟨j.val * 2048 + h.val * 128 + d.val, by omega⟩

/-- The fused projection at (b, s, e): the row of `x` times the column of `w`, plus the bias. -/
def qkvAt (x : SX.Idx → EReal) (w : SW.Idx → EReal) (bias : SB.Idx → EReal) (b : Fin 2) (s : Fin 2048) (e : Fin 6144) : EReal :=
  (∑ k : Fin 2048, x (ix3 b s k) * w (ix2 k e)) + bias (ix1 e)

/-- An array of the projection's shape read by coordinates. -/
def Qof (a : SQ.Idx → EReal) : Fin 2 → Fin 2048 → Fin 6144 → EReal := fun b s e => a (ix3 b s e)

/-- The scale both programs multiply the logits by, as the word they print. -/
def scale : EReal := Ideal.ofBits .f32 0x3DB504F3#32

/-- A row's maximum: the fold of `max` over the row from the word of −∞. -/
def rowMax (r : Fin 2048 → EReal) : EReal := (Finset.univ : Finset (Fin 2048)).fold max (Ideal.ofBits .f32 0xFF800000#32) r

/-- The softmax of a row at `k`: the exponential of the entry less the row's maximum, over the sum of those exponentials. -/
def softmaxRow (r : Fin 2048 → EReal) (k : Fin 2048) : EReal :=
  Ideal.div (Ideal.exp (r k - rowMax r)) (∑ k' : Fin 2048, Ideal.exp (r k' - rowMax r))

section
variable (Q : Fin 2 → Fin 2048 → Fin 6144 → EReal)

/-- The scaled logit of query `q` against key `k` in batch `b`, head `h`. -/
def logit (b : Fin 2) (h : Fin 16) (q k : Fin 2048) : EReal :=
  (∑ d : Fin 128, Q b q (col 0 h d) * Q b k (col 1 h d)) * scale

/-- The attention probability of query `q` on key `k`. -/
def prob (b : Fin 2) (h : Fin 16) (q k : Fin 2048) : EReal := softmaxRow (fun k' => logit Q b h q k') k

/-- The mixed value of query `q`, head `h`, lane `d`. -/
def mix (b : Fin 2) (q : Fin 2048) (h : Fin 16) (d : Fin 128) : EReal := ∑ k : Fin 2048, prob Q b h q k * Q b k (col 2 h d)

/-- The probabilities as an array [2, 16, 2048, 2048]. -/
def scoresArr : SS.Idx → EReal := fun i => prob Q (i 0) (i 1) (i 2) (i 3)

/-- The mixed values as an array [2, 2048, 2048]: head `h`'s lanes at columns h·128 … h·128 + 127. -/
def attnArr : SX.Idx → EReal := fun i =>
  mix Q (i 0) (i 1) ⟨(i 2).val / 128, by have h2 : (i 2).val < 2048 := (i 2).isLt; show (i 2).val / 128 < 16; omega⟩ ⟨(i 2).val % 128, Nat.mod_lt _ (by decide)⟩
end

/-- The first region's result [4096, 6144] from its operands [4096, 2048], [2048, 6144], [6144]: row times column plus bias. -/
def mm0 (x0 : (⟨2, ![4096, 2048]⟩ : Shape).Idx → EReal) (w : SW.Idx → EReal) (bias : SB.Idx → EReal) : (⟨2, ![4096, 6144]⟩ : Shape).Idx → EReal :=
  fun i => (∑ k : Fin 2048, x0 (ix2 (i 0) k) * w (ix2 k (i 1))) + bias (ix1 (i 1))

end Cert.Spec

end
-- ==== Proof.KIPay.lean ====
/-
  The kernel bodies' stored values read at one index, over the extended reals. The projection body stores, at (p, q)
  of its block, the row p of the input block times the column q of the weight block plus the bias entry q. The
  attention body's probabilities at (p, k) are the row softmax of the scaled logits of query row p against the key
  rows; its mixed values at (p, d) are those probabilities times column d of the value block.
-/
import proofs.«400691_j29222957482045_3_alg».proof.Proof.Gen.KernelIdeal.Skeleton
import proofs.«400691_j29222957482045_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The projection body's product: rows of the left block against columns of the right block -/

private theorem lhs_dot0_0 (i : S2048x256.Idx) (q : dot_S2048x2048_S2048x256_S2048x256_1_0_0_1_n_n.contr.Idx) :
    (dot_S2048x2048_S2048x256_S2048x256_1_0_0_1_n_n.lhsIdx i q 0).val = (i 0).val := by
  unfold DotDims.lhsIdx
  rw [dif_neg (show ¬(0 : Fin S2048x2048.rank) ∈ dot_S2048x2048_S2048x256_S2048x256_1_0_0_1_n_n.lhsBatch by decide), dif_pos (show (0 : Fin S2048x2048.rank) ∈ dot_S2048x2048_S2048x256_S2048x256_1_0_0_1_n_n.lhsNonContracting by decide)]
  rfl
private theorem lhs_dot0_1 (i : S2048x256.Idx) (q : dot_S2048x2048_S2048x256_S2048x256_1_0_0_1_n_n.contr.Idx) :
    (dot_S2048x2048_S2048x256_S2048x256_1_0_0_1_n_n.lhsIdx i q 1).val = (q ⟨0, by decide⟩).val :=
  dot_S2048x2048_S2048x256_S2048x256_1_0_0_1_n_n.lhsIdx_val_of_single rfl i q
private theorem rhs_dot0_0 (i : S2048x256.Idx) (q : dot_S2048x2048_S2048x256_S2048x256_1_0_0_1_n_n.contr.Idx) :
    (dot_S2048x2048_S2048x256_S2048x256_1_0_0_1_n_n.rhsIdx i q 0).val = (q ⟨0, by decide⟩).val :=
  dot_S2048x2048_S2048x256_S2048x256_1_0_0_1_n_n.rhsIdx_val_of_single rfl i q
private theorem rhs_dot0_1 (i : S2048x256.Idx) (q : dot_S2048x2048_S2048x256_S2048x256_1_0_0_1_n_n.contr.Idx) :
    (dot_S2048x2048_S2048x256_S2048x256_1_0_0_1_n_n.rhsIdx i q 1).val = (i 1).val := by
  unfold DotDims.rhsIdx
  rw [dif_neg (show ¬(1 : Fin S2048x256.rank) ∈ dot_S2048x2048_S2048x256_S2048x256_1_0_0_1_n_n.rhsBatch by decide), dif_pos (show (1 : Fin S2048x256.rank) ∈ dot_S2048x2048_S2048x256_S2048x256_1_0_0_1_n_n.rhsNonContracting by decide)]
  rfl

/-- The product into the zero accumulator at (p, q): the sum over the shared axis. -/
private theorem dot0_apply (a : FVec Ideal S2048x2048 .bf16) (b : FVec Ideal S2048x256 .bf16) (p : Fin 2048) (q : Fin 256) :
    FloatOps.matmul dot_S2048x2048_S2048x256_S2048x256_1_0_0_1_n_n none a b (constant (F := Ideal) S2048x256 .f32 0x00000000#32) (ix2 p q)
      = ∑ k : Fin 2048, a (ix2 p k) * b (ix2 k q) := by
  rw [Ideal.matmul_constant_zero_apply, ← Equiv.sum_comp (ValueIdx.contrEquiv1 dot_S2048x2048_S2048x256_S2048x256_1_0_0_1_n_n 2048 rfl rfl).symm]
  refine Finset.sum_congr rfl fun k _ => ?_
  have hk := ValueIdx.contrEquiv1_symm_val dot_S2048x2048_S2048x256_S2048x256_1_0_0_1_n_n 2048 rfl rfl k
  have el : dot_S2048x2048_S2048x256_S2048x256_1_0_0_1_n_n.lhsIdx (ix2 p q) ((ValueIdx.contrEquiv1 dot_S2048x2048_S2048x256_S2048x256_1_0_0_1_n_n 2048 rfl rfl).symm k) = ix2 p k := funext fun c => Fin.ext (by
    match c with
    | ⟨0, _⟩ => exact lhs_dot0_0 _ _
    | ⟨1, _⟩ => exact (lhs_dot0_1 _ _).trans hk)
  have er : dot_S2048x2048_S2048x256_S2048x256_1_0_0_1_n_n.rhsIdx (ix2 p q) ((ValueIdx.contrEquiv1 dot_S2048x2048_S2048x256_S2048x256_1_0_0_1_n_n 2048 rfl rfl).symm k) = ix2 k q := funext fun c => Fin.ext (by
    match c with
    | ⟨0, _⟩ => exact (rhs_dot0_0 _ _).trans hk
    | ⟨1, _⟩ => exact rhs_dot0_1 _ _)
  rw [el, er]

/-- The projection body's stored value at (p, q): row p of the input block times column q of the weight block, plus
    the bias at q (the two narrowings and the widening are the identity on the extended reals). -/
theorem pay0_apply (x0 : FVec Ideal S2048x2048 .f32) (x1 : FVec Ideal S2048x256 .f32) (x2 : FVec Ideal S256 .f32)
    (p : Fin 2048) (q : Fin 256) :
    k0_pay1 (F := Ideal) x0 x1 x2 (ix2 p q) = (∑ k : Fin 2048, x0 (ix2 p k) * x1 (ix2 k q)) + x2 (ix1 q) := by
  unfold k0_pay1
  simp only [matmul]
  rw [truncf_apply, addf_apply, dot0_apply, broadcastTo_1b_ab_apply, shapeCast_a_1a_apply]
  simp only [truncf_apply, shapeCast_self]

/-- The scaled logit of query row `p` of a query block against key row `k` of a key block. -/
def blockLogit (v0 : FVec Ideal S1x256x128 .bf16) (v2 : FVec Ideal S1x2048x128 .bf16) (p : Fin 256) (k : Fin 2048) : EReal :=
  (∑ d : Fin 128, v0 (ix3 (0 : Fin 1) p d) * v2 (ix3 (0 : Fin 1) k d)) * Cert.Spec.scale

/-! ## Three layout steps: a vector cast to a column, a column laid along every row, two unit axes added in front -/

/-- An `[a]` array cast to a column `[a, 1]` reads, at `(i, u)`, the operand at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
private theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b]` array cast to `[1, 1, a, b]` reads, at `(u, w, i, j)`, the operand at `(i, j)`. -/
private theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

/-! ## The two row reductions of a [256, 2048] block -/

/-- The lane maximum of row `p`: the fold of `max` over the row from the accumulator's word. -/
private theorem rowMax_apply (x : FVec Ideal S256x2048 .f32) (p : Fin 256) :
    multiReduction (F := Ideal) .maximumf [1] S256 x 0xFF800000#32 reduces_S256x2048_S256 (.inl rfl) rfl (ix1 p)
      = Cert.Spec.rowMax (fun k => x (ix2 p k)) := by
  refine (Ideal.multiReduction_maximumf_single x 0xFF800000#32 reduces_S256x2048_S256 (.inl rfl) rfl (ix1 p)).trans ?_
  show (Finset.univ : Finset (Fin 2048)).fold max (Ideal.ofBits .f32 0xFF800000#32) (fun k => x (reduces_S256x2048_S256.lift (ix1 p) k)) = _
  unfold Cert.Spec.rowMax
  refine congrArg (fun f => (Finset.univ : Finset (Fin 2048)).fold max (Ideal.ofBits .f32 0xFF800000#32) f) (funext fun k => congrArg x (funext fun c => Fin.ext ?_))
  match c with
  | ⟨0, _⟩ => rfl
  | ⟨1, _⟩ => rfl

/-- The lane sum of row `p`. -/
private theorem rowSum_apply (x : FVec Ideal S256x2048 .f32) (p : Fin 256) :
    multiReduction (F := Ideal) .add [1] S256 x 0x00000000#32 reduces_S256x2048_S256 (.inl rfl) rfl (ix1 p)
      = ∑ k : Fin 2048, x (ix2 p k) := by
  refine (Ideal.multiReduction_add_single x 0x00000000#32 reduces_S256x2048_S256 (.inl rfl) rfl (ix1 p)).trans ?_
  show ∑ k : Fin 2048, x (reduces_S256x2048_S256.lift (ix1 p) k) = _
  refine Finset.sum_congr rfl fun k _ => congrArg x (funext fun c => Fin.ext ?_)
  match c with
  | ⟨0, _⟩ => rfl
  | ⟨1, _⟩ => rfl

/-! ## The attention body's first product: query rows against key rows, over the lanes -/

private theorem lhs_dot1_0 (i : S256x2048.Idx) (q : dot_S256x128_S2048x128_S256x2048_1_1_0_0_n_n.contr.Idx) :
    (dot_S256x128_S2048x128_S256x2048_1_1_0_0_n_n.lhsIdx i q 0).val = (i 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl
private theorem lhs_dot1_1 (i : S256x2048.Idx) (q : dot_S256x128_S2048x128_S256x2048_1_1_0_0_n_n.contr.Idx) :
    (dot_S256x128_S2048x128_S256x2048_1_1_0_0_n_n.lhsIdx i q 1).val = (q ⟨0, by decide⟩).val :=
  dot_S256x128_S2048x128_S256x2048_1_1_0_0_n_n.lhsIdx_val_of_single rfl i q
private theorem rhs_dot1_0 (i : S256x2048.Idx) (q : dot_S256x128_S2048x128_S256x2048_1_1_0_0_n_n.contr.Idx) :
    (dot_S256x128_S2048x128_S256x2048_1_1_0_0_n_n.rhsIdx i q 0).val = (i 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl
private theorem rhs_dot1_1 (i : S256x2048.Idx) (q : dot_S256x128_S2048x128_S256x2048_1_1_0_0_n_n.contr.Idx) :
    (dot_S256x128_S2048x128_S256x2048_1_1_0_0_n_n.rhsIdx i q 1).val = (q ⟨0, by decide⟩).val :=
  dot_S256x128_S2048x128_S256x2048_1_1_0_0_n_n.rhsIdx_val_of_single rfl i q

/-- The product into the zero accumulator at (p, q): the sum over the lanes of row p of the left block times row q of the right block. -/
private theorem dot1_apply (a : FVec Ideal S256x128 .bf16) (b : FVec Ideal S2048x128 .bf16) (p : Fin 256) (q : Fin 2048) :
    FloatOps.matmul dot_S256x128_S2048x128_S256x2048_1_1_0_0_n_n none a b (constant (F := Ideal) S256x2048 .f32 0x00000000#32) (ix2 p q)
      = ∑ k : Fin 128, a (ix2 p k) * b (ix2 q k) := by
  rw [Ideal.matmul_constant_zero_apply, ← Equiv.sum_comp (ValueIdx.contrEquiv1 dot_S256x128_S2048x128_S256x2048_1_1_0_0_n_n 128 rfl rfl).symm]
  refine Finset.sum_congr rfl fun k _ => ?_
  have hk := ValueIdx.contrEquiv1_symm_val dot_S256x128_S2048x128_S256x2048_1_1_0_0_n_n 128 rfl rfl k
  have el : dot_S256x128_S2048x128_S256x2048_1_1_0_0_n_n.lhsIdx (ix2 p q) ((ValueIdx.contrEquiv1 dot_S256x128_S2048x128_S256x2048_1_1_0_0_n_n 128 rfl rfl).symm k) = ix2 p k := funext fun c => Fin.ext (by
    match c with
    | ⟨0, _⟩ => exact lhs_dot1_0 _ _
    | ⟨1, _⟩ => exact (lhs_dot1_1 _ _).trans hk)
  have er : dot_S256x128_S2048x128_S256x2048_1_1_0_0_n_n.rhsIdx (ix2 p q) ((ValueIdx.contrEquiv1 dot_S256x128_S2048x128_S256x2048_1_1_0_0_n_n 128 rfl rfl).symm k) = ix2 q k := funext fun c => Fin.ext (by
    match c with
    | ⟨0, _⟩ => exact rhs_dot1_0 _ _
    | ⟨1, _⟩ => exact (rhs_dot1_1 _ _).trans hk)
  rw [el, er]

/-- The scaled logits block: the product of the two blocks (unit axes dropped) times the splat of the scale. -/
private def logits (v0 : FVec Ideal S1x256x128 .bf16) (v2 : FVec Ideal S1x2048x128 .bf16) : FVec Ideal S256x2048 .f32 :=
  mulf (matmul dot_S256x128_S2048x128_S256x2048_1_1_0_0_n_n none (shapeCast S256x128 v0 shapeCasts_S1x256x128_S256x128)
      (shapeCast S2048x128 v2 shapeCasts_S1x2048x128_S2048x128) (constant (F := Ideal) S256x2048 .f32 0x00000000#32))
    (broadcast S256x2048 (Scalar.ofBits (F := Ideal) .f32 0x3DB504F3#32))

private theorem logits_apply (v0 : FVec Ideal S1x256x128 .bf16) (v2 : FVec Ideal S1x2048x128 .bf16) (p : Fin 256) (k : Fin 2048) :
    logits v0 v2 (ix2 p k) = blockLogit v0 v2 p k := by
  unfold logits blockLogit
  simp only [matmul]
  rw [mulf_apply, dot1_apply, broadcast_apply]
  refine congrArg₂ (· * ·) (Finset.sum_congr rfl fun d _ => ?_) rfl
  rw [shapeCast_1ab_ab_apply, shapeCast_1ab_ab_apply]

/-- The row softmax of a [256, 2048] block as the body takes it: the row maximum laid back along the row, the
    exponentials of the differences, their row sum laid back along the row, the quotient. -/
private def softmaxBlock (x : FVec Ideal S256x2048 .f32) : FVec Ideal S256x2048 .f32 :=
  divf (exp (subf x (broadcastTo S256x2048 (shapeCast S256x1 (multiReduction (F := Ideal) .maximumf [1] S256 x 0xFF800000#32 reduces_S256x2048_S256 (.inl rfl) rfl) shapeCasts_S256_S256x1) broadcasts_S256x1_S256x2048)))
    (broadcastTo S256x2048 (shapeCast S256x1 (multiReduction (F := Ideal) .add [1] S256
      (exp (subf x (broadcastTo S256x2048 (shapeCast S256x1 (multiReduction (F := Ideal) .maximumf [1] S256 x 0xFF800000#32 reduces_S256x2048_S256 (.inl rfl) rfl) shapeCasts_S256_S256x1) broadcasts_S256x1_S256x2048)))
      0x00000000#32 reduces_S256x2048_S256 (.inl rfl) rfl) shapeCasts_S256_S256x1) broadcasts_S256x1_S256x2048)

/-- The exponentials of a row's entries less the row's maximum. -/
private theorem expShift_apply (x : FVec Ideal S256x2048 .f32) (p : Fin 256) (k : Fin 2048) :
    exp (subf x (broadcastTo S256x2048 (shapeCast S256x1 (multiReduction (F := Ideal) .maximumf [1] S256 x 0xFF800000#32 reduces_S256x2048_S256 (.inl rfl) rfl) shapeCasts_S256_S256x1) broadcasts_S256x1_S256x2048)) (ix2 p k)
      = Ideal.exp (x (ix2 p k) - Cert.Spec.rowMax (fun k' => x (ix2 p k'))) := by
  show Ideal.exp (subf x _ (ix2 p k)) = _
  rw [subf_apply, broadcastTo_a1_ab_apply, shapeCast_a_a1_apply, rowMax_apply]

private theorem softmaxBlock_apply (x : FVec Ideal S256x2048 .f32) (p : Fin 256) (k : Fin 2048) :
    softmaxBlock x (ix2 p k) = Cert.Spec.softmaxRow (fun k' => x (ix2 p k')) k := by
  unfold softmaxBlock Cert.Spec.softmaxRow
  rw [divf_apply, expShift_apply, broadcastTo_a1_ab_apply, shapeCast_a_a1_apply, rowSum_apply]
  refine congrArg _ (Finset.sum_congr rfl fun k' _ => ?_)
  rw [expShift_apply]

/-- The attention body's probabilities at (p, k): the softmax of row p's scaled logits, at k. -/
theorem pay1_apply (v0 : FVec Ideal S1x256x128 .bf16) (v2 : FVec Ideal S1x2048x128 .bf16) (p : Fin 256) (k : Fin 2048) :
    k1_pay1 (F := Ideal) v0 v2 (ix2 p k) = Cert.Spec.softmaxRow (blockLogit v0 v2 p) k := by
  have e : k1_pay1 (F := Ideal) v0 v2 = softmaxBlock (logits v0 v2) := rfl
  rw [e, softmaxBlock_apply]
  exact congrArg (fun r => Cert.Spec.softmaxRow r k) (funext fun k' => logits_apply v0 v2 p k')

/-! ## The attention body's second product: probabilities against the value block -/

private theorem lhs_dot3_0 (i : S256x128.Idx) (q : dot_S256x2048_S2048x128_S256x128_1_0_0_1_n_n.contr.Idx) :
    (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
private theorem lhs_dot3_1 (i : S256x128.Idx) (q : dot_S256x2048_S2048x128_S256x128_1_0_0_1_n_n.contr.Idx) :
    (dot_S256x2048_S2048x128_S256x128_1_0_0_1_n_n.lhsIdx i q 1).val = (q ⟨0, by decide⟩).val :=
  dot_S256x2048_S2048x128_S256x128_1_0_0_1_n_n.lhsIdx_val_of_single rfl i q
private theorem rhs_dot3_0 (i : S256x128.Idx) (q : dot_S256x2048_S2048x128_S256x128_1_0_0_1_n_n.contr.Idx) :
    (dot_S256x2048_S2048x128_S256x128_1_0_0_1_n_n.rhsIdx i q 0).val = (q ⟨0, by decide⟩).val :=
  dot_S256x2048_S2048x128_S256x128_1_0_0_1_n_n.rhsIdx_val_of_single rfl i q
private theorem rhs_dot3_1 (i : S256x128.Idx) (q : dot_S256x2048_S2048x128_S256x128_1_0_0_1_n_n.contr.Idx) :
    (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl

/-- The product into the zero accumulator at (p, q): row p of the left block times column q of the right block. -/
private theorem dot3_apply (a : FVec Ideal S256x2048 .bf16) (b : FVec Ideal S2048x128 .bf16) (p : Fin 256) (q : Fin 128) :
    FloatOps.matmul dot_S256x2048_S2048x128_S256x128_1_0_0_1_n_n none a b (constant (F := Ideal) S256x128 .f32 0x00000000#32) (ix2 p q)
      = ∑ k : Fin 2048, a (ix2 p k) * b (ix2 k q) := by
  rw [Ideal.matmul_constant_zero_apply, ← Equiv.sum_comp (ValueIdx.contrEquiv1 dot_S256x2048_S2048x128_S256x128_1_0_0_1_n_n 2048 rfl rfl).symm]
  refine Finset.sum_congr rfl fun k _ => ?_
  have hk := ValueIdx.contrEquiv1_symm_val dot_S256x2048_S2048x128_S256x128_1_0_0_1_n_n 2048 rfl rfl k
  have el : dot_S256x2048_S2048x128_S256x128_1_0_0_1_n_n.lhsIdx (ix2 p q) ((ValueIdx.contrEquiv1 dot_S256x2048_S2048x128_S256x128_1_0_0_1_n_n 2048 rfl rfl).symm k) = ix2 p k := funext fun c => Fin.ext (by
    match c with
    | ⟨0, _⟩ => exact lhs_dot3_0 _ _
    | ⟨1, _⟩ => exact (lhs_dot3_1 _ _).trans hk)
  have er : dot_S256x2048_S2048x128_S256x128_1_0_0_1_n_n.rhsIdx (ix2 p q) ((ValueIdx.contrEquiv1 dot_S256x2048_S2048x128_S256x128_1_0_0_1_n_n 2048 rfl rfl).symm k) = ix2 k q := funext fun c => Fin.ext (by
    match c with
    | ⟨0, _⟩ => exact (rhs_dot3_0 _ _).trans hk
    | ⟨1, _⟩ => exact rhs_dot3_1 _ _)
  rw [el, er]

/-- The stored probabilities block [1, 1, 256, 2048] at (0, 0, p, k) is the probability at (p, k). -/
theorem pay2_apply (v0 : FVec Ideal S1x256x128 .bf16) (v2 : FVec Ideal S1x2048x128 .bf16) (p : Fin 256) (k : Fin 2048) :
    k1_pay2 (F := Ideal) v0 v2 (ix4 (0 : Fin 1) (0 : Fin 1) p k) = Cert.Spec.softmaxRow (blockLogit v0 v2 p) k := by
  show shapeCast S1x1x256x2048 (k1_pay1 (F := Ideal) v0 v2) shapeCasts_S256x2048_S1x1x256x2048 (ix4 (0 : Fin 1) (0 : Fin 1) p k) = _
  rw [shapeCast_ab_11ab_apply, pay1_apply]

/-- The stored mixed values block [1, 256, 128] at (0, p, d): row p's probabilities times column d of the value block. -/
theorem pay3_apply (v0 : FVec Ideal S1x256x128 .bf16) (v2 v4 : FVec Ideal S1x2048x128 .bf16) (p : Fin 256) (d : Fin 128) :
    k1_pay3 (F := Ideal) v0 v2 v4 (ix3 (0 : Fin 1) p d)
      = ∑ k : Fin 2048, Cert.Spec.softmaxRow (blockLogit v0 v2 p) k * v4 (ix3 (0 : Fin 1) k d) := by
  show shapeCast S1x256x128 (FloatOps.matmul dot_S256x2048_S2048x128_S256x128_1_0_0_1_n_n none
      (truncf .bf16 (k1_pay1 (F := Ideal) v0 v2) bitsLt_bf16_f32) (shapeCast S2048x128 v4 shapeCasts_S1x2048x128_S2048x128)
      (constant (F := Ideal) S256x128 .f32 0x00000000#32)) shapeCasts_S256x128_S1x256x128 (ix3 (0 : Fin 1) p d) = _
  rw [shapeCast_ab_1ab_apply, dot3_apply]
  refine Finset.sum_congr rfl fun k _ => ?_
  rw [truncf_apply, pay1_apply, shapeCast_1ab_ab_apply]

end Cert.KernelIdeal.Hand

end
-- ==== Proof.KIValue1.lean ====
/-
  The second region's two results as functions of the projection array it reads. Grid point (b, h, i) reads the
  query rows 256·i … 256·i + 255 of head h (columns h·128 … of the projection), all 2048 key rows (columns
  2048 + h·128 …) and all 2048 value rows (columns 4096 + h·128 …) of batch b; it stores the 256 × 2048 block of
  probabilities at (b, h, 256·i …, 0 …) and the 256 × 128 block of mixed values at (b, 256·i …, h·128 …). The 256 blocks
  of each result tile it, so after the last write-back the probabilities array holds the row softmax of the scaled
  logits and the output array the probabilities times the value columns.
-/
import proofs.«400691_j29222957482045_3_alg».proof.Proof.KIRegion1
import proofs.«400691_j29222957482045_3_alg».proof.Proof.KIPay
import proofs.«400691_j29222957482045_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The grid and the index maps -/

/-- The zero offsets of a rank-3 whole-buffer rectangle, as a constant function. -/
theorem off3_zero1 : (![0, 0, 0] : Fin 3 → Nat) = fun _ => 0 := funext fun a => by fin_cases a <;> rfl
/-- The zero offsets of a rank-4 whole-buffer rectangle, as a constant function. -/
theorem off4_zero1 : (![0, 0, 0, 0] : Fin 4 → Nat) = fun _ => 0 := funext fun a => by fin_cases a <;> rfl

/-- Grid point number t is (b, h, i) = (t / 128, t / 8 mod 16, t mod 8), and the five index maps at it are:
    the query block (b, i, h), the key block (b, 0, 16 + h), the value block (b, 0, 32 + h), the output block
    (b, i, h), the probabilities block (b, h, i, 0). -/
theorem block_indices1 : ∀ t : Fin cfg1.N,
    win1_0.index t (0 : Fin 3) = t.val / 128 ∧ win1_0.index t (1 : Fin 3) = t.val % 8 ∧ win1_0.index t (2 : Fin 3) = t.val / 8 % 16
    ∧ win1_1.index t (0 : Fin 3) = t.val / 128 ∧ win1_1.index t (1 : Fin 3) = 0 ∧ win1_1.index t (2 : Fin 3) = 16 + t.val / 8 % 16
    ∧ win1_2.index t (0 : Fin 3) = t.val / 128 ∧ win1_2.index t (1 : Fin 3) = 0 ∧ win1_2.index t (2 : Fin 3) = 32 + t.val / 8 % 16
    ∧ win1_3.index t (0 : Fin 3) = t.val / 128 ∧ win1_3.index t (1 : Fin 3) = t.val % 8 ∧ win1_3.index t (2 : Fin 3) = t.val / 8 % 16
    ∧ win1_4.index t (0 : Fin 4) = t.val / 128 ∧ win1_4.index t (1 : Fin 4) = t.val / 8 % 16 ∧ win1_4.index t (2 : Fin 4) = t.val % 8
    ∧ win1_4.index t (3 : Fin 4) = 0 :=
  (by decide +kernel : ∀ t : Fin grid1.N, _)

/-! ## The input blocks as entries of the projection array -/

/-- An entry of the query block at point t is the array's entry at the block's index times the block's size plus
    the entry's own coordinate, axis by axis. -/
theorem query_block_apply1 (c : Dev nD) (t : Fin cfg1.N) (x : S1x256x128.Idx) (k : S2x2048x6144.Idx)
    (h0 : (k 0).val = win1_0.index t (0 : Fin 3) * 1 + (x 0).val)
    (h1 : (k 1).val = win1_0.index t (1 : Fin 3) * 256 + (x 1).val)
    (h2 : (k 2).val = win1_0.index t (2 : Fin 3) * 128 + (x 2).val) :
    (iblk1 V c 0 t : Vec Ideal S1x256x128 .bf16) x = (V c main_v2 : Vec Ideal S2x2048x6144 .bf16) k := by
  unfold iblk1
  rw [View.read_apply]
  show V c main_v2 _ = V c main_v2 _
  congr 1
  funext a
  apply Fin.ext
  match a with
  | ⟨0, _⟩ => show win1_0.index t (0 : Fin 3) * 1 + 1 * (x 0).val = (k 0).val; omega
  | ⟨1, _⟩ => show win1_0.index t (1 : Fin 3) * 256 + 1 * (x 1).val = (k 1).val; omega
  | ⟨2, _⟩ => show win1_0.index t (2 : Fin 3) * 128 + 1 * (x 2).val = (k 2).val; omega

/-- An entry of the key block at point t, likewise. -/
theorem key_block_apply1 (c : Dev nD) (t : Fin cfg1.N) (x : S1x2048x128.Idx) (k : S2x2048x6144.Idx)
    (h0 : (k 0).val = win1_1.index t (0 : Fin 3) * 1 + (x 0).val)
    (h1 : (k 1).val = win1_1.index t (1 : Fin 3) * 2048 + (x 1).val)
    (h2 : (k 2).val = win1_1.index t (2 : Fin 3) * 128 + (x 2).val) :
    (iblk1 V c 1 t : Vec Ideal S1x2048x128 .bf16) x = (V c main_v2 : Vec Ideal S2x2048x6144 .bf16) k := by
  unfold iblk1
  rw [View.read_apply]
  show V c main_v2 _ = V c main_v2 _
  congr 1
  funext a
  apply Fin.ext
  match a with
  | ⟨0, _⟩ => show win1_1.index t (0 : Fin 3) * 1 + 1 * (x 0).val = (k 0).val; omega
  | ⟨1, _⟩ => show win1_1.index t (1 : Fin 3) * 2048 + 1 * (x 1).val = (k 1).val; omega
  | ⟨2, _⟩ => show win1_1.index t (2 : Fin 3) * 128 + 1 * (x 2).val = (k 2).val; omega

/-- An entry of the value block at point t, likewise. -/
theorem value_block_apply1 (c : Dev nD) (t : Fin cfg1.N) (x : S1x2048x128.Idx) (k : S2x2048x6144.Idx)
    (h0 : (k 0).val = win1_2.index t (0 : Fin 3) * 1 + (x 0).val)
    (h1 : (k 1).val = win1_2.index t (1 : Fin 3) * 2048 + (x 1).val)
    (h2 : (k 2).val = win1_2.index t (2 : Fin 3) * 128 + (x 2).val) :
    (iblk1 V c 2 t : Vec Ideal S1x2048x128 .bf16) x = (V c main_v2 : Vec Ideal S2x2048x6144 .bf16) k := by
  unfold iblk1
  rw [View.read_apply]
  show V c main_v2 _ = V c main_v2 _
  congr 1
  funext a
  apply Fin.ext
  match a with
  | ⟨0, _⟩ => show win1_2.index t (0 : Fin 3) * 1 + 1 * (x 0).val = (k 0).val; omega
  | ⟨1, _⟩ => show win1_2.index t (1 : Fin 3) * 2048 + 1 * (x 1).val = (k 1).val; omega
  | ⟨2, _⟩ => show win1_2.index t (2 : Fin 3) * 128 + 1 * (x 2).val = (k 2).val; omega

/-! ## The logits of a block -/

/-- When the query block's row p is row q of head h's query columns of batch b, and the key block is all rows of
    head h's key columns of batch b, the block's scaled logits of row p are the specification's logits of query q. -/
theorem logit_block1 (A : Cert.Spec.SQ.Idx → EReal) (v0 : FVec Ideal S1x256x128 .bf16) (v2 : FVec Ideal S1x2048x128 .bf16)
    (b : Fin 2) (h : Fin 16) (q : Fin 2048) (p : Fin 256)
    (h0 : ∀ d : Fin 128, v0 (ix3 (0 : Fin 1) p d) = A (ix3 b q (Cert.Spec.col 0 h d)))
    (h2 : ∀ (k : Fin 2048) (d : Fin 128), v2 (ix3 (0 : Fin 1) k d) = A (ix3 b k (Cert.Spec.col 1 h d))) :
    blockLogit v0 v2 p = fun k => Cert.Spec.logit (Cert.Spec.Qof A) b h q k := by
  funext k
  unfold blockLogit Cert.Spec.logit Cert.Spec.Qof
  simp only [h0, h2]

/-- Under the same hypotheses the stored probabilities of row p are the specification's probabilities of query q. -/
theorem prob_block1 (A : Cert.Spec.SQ.Idx → EReal) (v0 : FVec Ideal S1x256x128 .bf16) (v2 : FVec Ideal S1x2048x128 .bf16)
    (b : Fin 2) (h : Fin 16) (q : Fin 2048) (p : Fin 256)
    (h0 : ∀ d : Fin 128, v0 (ix3 (0 : Fin 1) p d) = A (ix3 b q (Cert.Spec.col 0 h d)))
    (h2 : ∀ (k : Fin 2048) (d : Fin 128), v2 (ix3 (0 : Fin 1) k d) = A (ix3 b k (Cert.Spec.col 1 h d)))
    (k : Fin 2048) :
    k1_pay2 (F := Ideal) v0 v2 (ix4 (0 : Fin 1) (0 : Fin 1) p k) = Cert.Spec.prob (Cert.Spec.Qof A) b h q k := by
  rw [pay2_apply, logit_block1 A v0 v2 b h q p h0 h2]
  rfl

/-- The probabilities array of the specification at an index given by its four coordinates. -/
theorem scoresArr_apply1 (Q : Fin 2 → Fin 2048 → Fin 6144 → EReal) (j : Cert.Spec.SS.Idx) (b : Fin 2) (h : Fin 16) (q k : Fin 2048)
    (e0 : (j 0).val = b.val) (e1 : (j 1).val = h.val) (e2 : (j 2).val = q.val) (e3 : (j 3).val = k.val) :
    Cert.Spec.scoresArr Q j = Cert.Spec.prob Q b h q k := by
  have e : j = ix4 b h q k := by
    funext a; apply Fin.ext
    match a with
    | ⟨0, _⟩ => exact e0
    | ⟨1, _⟩ => exact e1
    | ⟨2, _⟩ => exact e2
    | ⟨3, _⟩ => exact e3
  subst e
  rfl

/-! ## The probabilities array -/

/-- WHAT POINT t WRITES BACK to the probabilities array is block t of the specification's probabilities of the
    projection array as the region finds it. -/
theorem flushed_eq1_4 (c : Dev nD) (t : Fin cfg1.N) :
    (dat1 V c).flushed 4 t = ((cfg1.win 4).blk t).view.read (Elt Ideal) (Cert.Spec.scoresArr (Cert.Spec.Qof (V c main_v2))) := by
  show (cfg1.win 4).cut (grid1.coords t) ((dat1 V c).after 4 t) = _
  rw [after1_4]
  unfold out1_4
  rw [View.canon_unit_zero off4_zero1]
  simp only [View.ld_unit_zero (S := S1x256x128) off3_zero1, View.ld_unit_zero (S := S1x2048x128) off3_zero1]
  obtain ⟨a0, a1, a2, k0, k1, k2, -, -, -, -, -, -, s0, s1, s2, s3⟩ := block_indices1 t
  have hN : t.val < 256 := Nat.lt_of_lt_of_eq t.isLt N_1
  funext y
  obtain ⟨y0, y1, p, k, rfl⟩ : ∃ (y0 : Fin 1) (y1 : Fin 1) (p : Fin 256) (k : Fin 2048), y = ix4 y0 y1 p k := ⟨y 0, y 1, y 2, y 3, eq_ix4 y⟩
  obtain rfl : y0 = 0 := Subsingleton.elim _ _
  obtain rfl : y1 = 0 := Subsingleton.elim _ _
  rw [View.read_apply]
  show k1_pay2 (F := Ideal) (iblk1 V c 0 t) (iblk1 V c 1 t) (ix4 (0 : Fin 1) (0 : Fin 1) p k)
    = Cert.Spec.scoresArr (Cert.Spec.Qof (V c main_v2)) (((cfg1.win 4).blk t).view.emb (ix4 (0 : Fin 1) (0 : Fin 1) p k))
  have hp : p.val < 256 := p.isLt
  rw [scoresArr_apply1 _ _ ⟨t.val / 128, by omega⟩ ⟨t.val / 8 % 16, by omega⟩ ⟨t.val % 8 * 256 + p.val, by omega⟩ k
    (by show win1_4.index t (0 : Fin 4) * 1 + 1 * 0 = t.val / 128; omega)
    (by show win1_4.index t (1 : Fin 4) * 1 + 1 * 0 = t.val / 8 % 16; omega)
    (by show win1_4.index t (2 : Fin 4) * 256 + 1 * p.val = t.val % 8 * 256 + p.val; omega)
    (by show win1_4.index t (3 : Fin 4) * 2048 + 1 * k.val = k.val; omega)]
  refine prob_block1 (V c main_v2) _ _ _ _ _ p (fun d => query_block_apply1 V c t _ _ ?_ ?_ ?_) (fun k' d => key_block_apply1 V c t _ _ ?_ ?_ ?_) k
  · show t.val / 128 = win1_0.index t (0 : Fin 3) * 1 + 0; omega
  · show t.val % 8 * 256 + p.val = win1_0.index t (1 : Fin 3) * 256 + p.val; omega
  · show 0 * 2048 + t.val / 8 % 16 * 128 + d.val = win1_0.index t (2 : Fin 3) * 128 + d.val; omega
  · show t.val / 128 = win1_1.index t (0 : Fin 3) * 1 + 0; omega
  · show k'.val = win1_1.index t (1 : Fin 3) * 2048 + k'.val; omega
  · show 1 * 2048 + t.val / 8 % 16 * 128 + d.val = win1_1.index t (2 : Fin 3) * 128 + d.val; omega

/-- An index of the probabilities array is in point t's block iff each of its coordinates is in the block's range on
    its axis. -/
theorem mem_block1_4 (t : Fin cfg1.N) (i : S2x16x2048x2048.Idx) :
    i ∈ ((cfg1.win 4).blk t).view.set ↔ ∀ a : Fin 4, win1_4.index t a * S1x1x256x2048.size a ≤ (i a).val ∧ (i a).val < win1_4.index t a * S1x1x256x2048.size a + S1x1x256x2048.size a := by
  show i ∈ ((View.whole main_v3_1).slice (win1_4.rect t)).set ↔ _
  rw [View.set_slice_whole, Rect.mem_set_unit]
  exact Iff.rfl

/-- Every index (b, h, q, k) of the probabilities array is in the block of the grid point (b, h, q / 256), which is
    written back. -/
theorem covered1_4 (i : S2x16x2048x2048.Idx) :
    ∃ t : Fin cfg1.N, (cfg1.win 4).flush t = true ∧ i ∈ ((cfg1.win 4).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ : ∃ t : Fin cfg1.N, t.val = (i 0).val * 128 + (i 1).val * 8 + (i 2).val / 256 :=
    ⟨⟨(i 0).val * 128 + (i 1).val * 8 + (i 2).val / 256, Nat.lt_of_lt_of_eq (by omega) N_1.symm⟩, rfl⟩
  obtain ⟨-, -, -, -, -, -, -, -, -, -, -, -, s0, s1, s2, s3⟩ := block_indices1 t
  refine ⟨t, flush1_4 t, ?_⟩
  rw [mem_block1_4]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 1 ≤ (i 1).val ∧ (i 1).val < win1_4.index t (1 : Fin 4) * 1 + 1; omega
  | ⟨2, _⟩ => show win1_4.index t (2 : Fin 4) * 256 ≤ (i 2).val ∧ (i 2).val < win1_4.index t (2 : Fin 4) * 256 + 256; omega
  | ⟨3, _⟩ => show win1_4.index t (3 : Fin 4) * 2048 ≤ (i 3).val ∧ (i 3).val < win1_4.index t (3 : Fin 4) * 2048 + 2048; omega

/-- After the second region's last write-back the probabilities array holds the row softmax of the scaled logits of
    the projection array the region read. -/
theorem final1_4 (c : Dev nD) :
    (dat1 V c).arrAt 4 cfg1.N = Cert.Spec.scoresArr (Cert.Spec.Qof (V c main_v2)) :=
  (dat1 V c).arrAt_eq_of_cover 4 _ (fun t _ => flushed_eq1_4 V c t) covered1_4

/-! ## The output array -/

/-- Under the hypotheses of the logits' lemma, and when the value block is all rows of head h's value columns of
    batch b, the stored mixed value of row p, lane d is the specification's mixed value of query q, head h, lane d. -/
theorem mix_block1 (A : Cert.Spec.SQ.Idx → EReal) (v0 : FVec Ideal S1x256x128 .bf16) (v2 v4 : FVec Ideal S1x2048x128 .bf16)
    (b : Fin 2) (h : Fin 16) (q : Fin 2048) (p : Fin 256)
    (h0 : ∀ d : Fin 128, v0 (ix3 (0 : Fin 1) p d) = A (ix3 b q (Cert.Spec.col 0 h d)))
    (h2 : ∀ (k : Fin 2048) (d : Fin 128), v2 (ix3 (0 : Fin 1) k d) = A (ix3 b k (Cert.Spec.col 1 h d)))
    (h4 : ∀ (k : Fin 2048) (d : Fin 128), v4 (ix3 (0 : Fin 1) k d) = A (ix3 b k (Cert.Spec.col 2 h d)))
    (d : Fin 128) :
    k1_pay3 (F := Ideal) v0 v2 v4 (ix3 (0 : Fin 1) p d) = Cert.Spec.mix (Cert.Spec.Qof A) b q h d := by
  rw [pay3_apply, logit_block1 A v0 v2 b h q p h0 h2]
  unfold Cert.Spec.mix Cert.Spec.prob
  refine Finset.sum_congr rfl fun k _ => ?_
  rw [h4]
  rfl

/-- The output array of the specification at an index (b, q, h·128 + d). -/
theorem attnArr_apply1 (Q : Fin 2 → Fin 2048 → Fin 6144 → EReal) (j : Cert.Spec.SX.Idx) (b : Fin 2) (q : Fin 2048) (h : Fin 16) (d : Fin 128)
    (e0 : (j 0).val = b.val) (e1 : (j 1).val = q.val) (e2 : (j 2).val = h.val * 128 + d.val) :
    Cert.Spec.attnArr Q j = Cert.Spec.mix Q b q h d := by
  have hh : h.val < 16 := h.isLt
  have hd : d.val < 128 := d.isLt
  have hb : h.val * 128 + d.val < 2048 := by clear e0 e1 e2; omega
  have e : j = ix3 b q (⟨h.val * 128 + d.val, hb⟩ : Fin 2048) := by
    funext a; apply Fin.ext
    match a with
    | ⟨0, _⟩ => exact e0
    | ⟨1, _⟩ => exact e1
    | ⟨2, _⟩ => exact e2
  subst e
  have f2 : (⟨(h.val * 128 + d.val) / 128, by omega⟩ : Fin 16) = h := Fin.ext (by show (h.val * 128 + d.val) / 128 = h.val; omega)
  have f3 : (⟨(h.val * 128 + d.val) % 128, Nat.mod_lt _ (by decide)⟩ : Fin 128) = d := Fin.ext (by show (h.val * 128 + d.val) % 128 = d.val; omega)
  show Cert.Spec.mix Q b q ⟨(h.val * 128 + d.val) / 128, _⟩ ⟨(h.val * 128 + d.val) % 128, _⟩ = Cert.Spec.mix Q b q h d
  rw [f2, f3]

/-- WHAT POINT t WRITES BACK to the output array is block t of the specification's mixed values of the projection
    array as the region finds it. -/
theorem flushed_eq1_3 (c : Dev nD) (t : Fin cfg1.N) :
    (dat1 V c).flushed 3 t = ((cfg1.win 3).blk t).view.read (Elt Ideal) (Cert.Spec.attnArr (Cert.Spec.Qof (V c main_v2))) := by
  show (cfg1.win 3).cut (grid1.coords t) ((dat1 V c).after 3 t) = _
  rw [after1_3]
  unfold out1_3
  rw [View.canon_unit_zero off3_zero1]
  simp only [View.ld_unit_zero (S := S1x256x128) off3_zero1, View.ld_unit_zero (S := S1x2048x128) off3_zero1]
  obtain ⟨a0, a1, a2, k0, k1, k2, w0, w1, w2, o0, o1, o2, -, -, -, -⟩ := block_indices1 t
  have hN : t.val < 256 := Nat.lt_of_lt_of_eq t.isLt N_1
  funext y
  obtain ⟨y0, p, d, rfl⟩ : ∃ (y0 : Fin 1) (p : Fin 256) (d : Fin 128), y = ix3 y0 p d := ⟨y 0, y 1, y 2, eq_ix3 y⟩
  obtain rfl : y0 = 0 := Subsingleton.elim _ _
  rw [View.read_apply]
  show k1_pay3 (F := Ideal) (iblk1 V c 0 t) (iblk1 V c 1 t) (iblk1 V c 2 t) (ix3 (0 : Fin 1) p d)
    = Cert.Spec.attnArr (Cert.Spec.Qof (V c main_v2)) (((cfg1.win 3).blk t).view.emb (ix3 (0 : Fin 1) p d))
  have hp : p.val < 256 := p.isLt
  rw [attnArr_apply1 _ _ ⟨t.val / 128, by omega⟩ ⟨t.val % 8 * 256 + p.val, by omega⟩ ⟨t.val / 8 % 16, by omega⟩ d
    (by show win1_3.index t (0 : Fin 3) * 1 + 1 * 0 = t.val / 128; omega)
    (by show win1_3.index t (1 : Fin 3) * 256 + 1 * p.val = t.val % 8 * 256 + p.val; omega)
    (by show win1_3.index t (2 : Fin 3) * 128 + 1 * d.val = t.val / 8 % 16 * 128 + d.val; omega)]
  refine mix_block1 (V c main_v2) _ _ _ _ _ _ p (fun d' => query_block_apply1 V c t _ _ ?_ ?_ ?_)
    (fun k' d' => key_block_apply1 V c t _ _ ?_ ?_ ?_) (fun k' d' => value_block_apply1 V c t _ _ ?_ ?_ ?_) d
  · show t.val / 128 = win1_0.index t (0 : Fin 3) * 1 + 0; omega
  · show t.val % 8 * 256 + p.val = win1_0.index t (1 : Fin 3) * 256 + p.val; omega
  · show 0 * 2048 + t.val / 8 % 16 * 128 + d'.val = win1_0.index t (2 : Fin 3) * 128 + d'.val; omega
  · show t.val / 128 = win1_1.index t (0 : Fin 3) * 1 + 0; omega
  · show k'.val = win1_1.index t (1 : Fin 3) * 2048 + k'.val; omega
  · show 1 * 2048 + t.val / 8 % 16 * 128 + d'.val = win1_1.index t (2 : Fin 3) * 128 + d'.val; omega
  · show t.val / 128 = win1_2.index t (0 : Fin 3) * 1 + 0; omega
  · show k'.val = win1_2.index t (1 : Fin 3) * 2048 + k'.val; omega
  · show 2 * 2048 + t.val / 8 % 16 * 128 + d'.val = win1_2.index t (2 : Fin 3) * 128 + d'.val; omega

/-- An index of the output array is in point t's block iff each of its coordinates is in the block's range on its
    axis. -/
theorem mem_block1_3 (t : Fin cfg1.N) (i : S2x2048x2048.Idx) :
    i ∈ ((cfg1.win 3).blk t).view.set ↔ ∀ a : Fin 3, win1_3.index t a * S1x256x128.size a ≤ (i a).val ∧ (i a).val < win1_3.index t a * S1x256x128.size a + S1x256x128.size a := by
  show i ∈ ((View.whole main_v3_0).slice (win1_3.rect t)).set ↔ _
  rw [View.set_slice_whole, Rect.mem_set_unit]
  exact Iff.rfl

/-- Every index (b, q, e) of the output array is in the block of the grid point (b, e / 128, q / 256), which is
    written back. -/
theorem covered1_3 (i : S2x2048x2048.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 2048 := (i 2).isLt
  obtain ⟨t, ht⟩ : ∃ t : Fin cfg1.N, t.val = (i 0).val * 128 + (i 2).val / 128 * 8 + (i 1).val / 256 :=
    ⟨⟨(i 0).val * 128 + (i 2).val / 128 * 8 + (i 1).val / 256, Nat.lt_of_lt_of_eq (by omega) N_1.symm⟩, rfl⟩
  obtain ⟨-, -, -, -, -, -, -, -, -, o0, o1, o2, -, -, -, -⟩ := block_indices1 t
  refine ⟨t, flush1_3 t, ?_⟩
  rw [mem_block1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 128 ≤ (i 2).val ∧ (i 2).val < win1_3.index t (2 : Fin 3) * 128 + 128; omega

/-- After the second region's last write-back the output array holds the probabilities times the value columns, head
    h's lanes at columns h·128 …. -/
theorem final1_3 (c : Dev nD) :
    (dat1 V c).arrAt 3 cfg1.N = Cert.Spec.attnArr (Cert.Spec.Qof (V c main_v2)) :=
  (dat1 V c).arrAt_eq_of_cover 3 _ (fun t _ => flushed_eq1_3 V c t) covered1_3

end Cert.KernelIdeal.Hand

end
-- ==== Proof.KIValue0.lean ====
/-
  The first region's result as one function of its operands. Grid point (i, j) stores the block of rows
  2048·i … 2048·i + 2047 and columns 256·j … 256·j + 255; its stored value at (p, q) is row p of the input block
  times column q of the weight block plus the bias entry q, and those blocks are the operands' rows 2048·i + p, columns
  256·j + q. The 48 blocks tile the [4096, 6144] result, so after the last write-back the array holds, at (r, e), row r
  of the first operand times column e of the second plus the bias at e.
-/
import proofs.«400691_j29222957482045_3_alg».proof.Proof.KIRegion0
import proofs.«400691_j29222957482045_3_alg».proof.Proof.KIPay
import proofs.«400691_j29222957482045_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Offsets and block indices -/

/-- The offset (0, 0) is the zero offset. -/
theorem off2_zero0 : (![0, 0] : Fin 2 → Nat) = fun _ => 0 := funext fun a => by
  match a with
  | ⟨0, _⟩ => rfl
  | ⟨1, _⟩ => rfl

/-- The offset (0) is the zero offset. -/
theorem off1_zero0 : (![0] : Fin 1 → Nat) = fun _ => 0 := funext fun a => by
  match a with
  | ⟨0, _⟩ => rfl

/-- How the four windows' block indices are related at every grid point: the left factor's row block is the
    result's row block and it has a single column block; the right factor has a single row block and its column
    block is the result's; the bias block is the result's column block; the result's row block is 0 or 1 and its
    column block is at most 23. -/
theorem block_indices0 : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 1) = win0_3.index t (1 : Fin 2)
    ∧ win0_3.index t (0 : Fin 2) ≤ 1
    ∧ win0_3.index t (1 : Fin 2) ≤ 23 :=
  (by decide +kernel : ∀ t : Fin grid0.N, _)

/-- Every pair (row block, column block) of the result, 2 by 24 of them, is the result window's block index at
    some grid point. -/
theorem block_indices_onto0 : ∀ (b0 : Fin 2) (b1 : Fin 24), ∃ t : Fin cfg0.N, win0_3.index t = ![b0.val, b1.val] :=
  (by decide +kernel : ∀ (b0 : Fin 2) (b1 : Fin 24), ∃ t : Fin grid0.N, win0_3.index t = ![b0.val, b1.val])

/-! ## The input blocks, read at one index -/

/-- The left factor's block at point \`t\`, at (p, k), is the first operand at (r, k) where r is the result's row
    block times 2048 plus p. -/
theorem lhs_block_apply0 (c : Dev nD) (t : Fin cfg0.N) (p k : Fin 2048) (r : Fin 4096)
    (hr : r.val = win0_3.index t (0 : Fin 2) * 2048 + p.val) :
    (iblk0 V c 0 t : FVec Ideal S2048x2048 .f32) (ix2 p k) = (V c main_v0 : S4096x2048.Idx → EReal) (ix2 r k) := by
  obtain ⟨e0, e1, -, -, -, -, -⟩ := block_indices0 t
  unfold iblk0
  rw [View.read_apply]
  show V c main_v0 _ = V c main_v0 _
  congr 1
  funext a
  apply Fin.ext
  match a with
  | ⟨0, _⟩ => show win0_0.index t (0 : Fin 2) * 2048 + 1 * p.val = r.val; omega
  | ⟨1, _⟩ => show win0_0.index t (1 : Fin 2) * 2048 + 1 * k.val = k.val; omega

/-- The right factor's block at point \`t\`, at (k, q), is the second operand at (k, e) where e is the result's
    column block times 256 plus q. -/
theorem rhs_block_apply0 (c : Dev nD) (t : Fin cfg0.N) (k : Fin 2048) (q : Fin 256) (e : Fin 6144)
    (he : e.val = win0_3.index t (1 : Fin 2) * 256 + q.val) :
    (iblk0 V c 1 t : FVec Ideal S2048x256 .f32) (ix2 k q) = (V c main_arg1 : S2048x6144.Idx → EReal) (ix2 k e) := by
  obtain ⟨-, -, e2, e3, -, -, -⟩ := block_indices0 t
  unfold iblk0
  rw [View.read_apply]
  show V c main_arg1 _ = V c main_arg1 _
  congr 1
  funext a
  apply Fin.ext
  match a with
  | ⟨0, _⟩ => show win0_1.index t (0 : Fin 2) * 2048 + 1 * k.val = k.val; omega
  | ⟨1, _⟩ => show win0_1.index t (1 : Fin 2) * 256 + 1 * q.val = e.val; omega

/-- The bias block at point \`t\`, at q, is the third operand at e where e is the result's column block times 256
    plus q. -/
theorem bias_block_apply0 (c : Dev nD) (t : Fin cfg0.N) (q : Fin 256) (e : Fin 6144)
    (he : e.val = win0_3.index t (1 : Fin 2) * 256 + q.val) :
    (iblk0 V c 2 t : FVec Ideal S256 .f32) (ix1 q) = (V c main_arg2 : S6144.Idx → EReal) (ix1 e) := by
  obtain ⟨-, -, -, -, e4, -, -⟩ := block_indices0 t
  unfold iblk0
  rw [View.read_apply]
  show V c main_arg2 _ = V c main_arg2 _
  congr 1
  funext a
  apply Fin.ext
  match a with
  | ⟨0, _⟩ => show win0_2.index t (0 : Fin 1) * 256 + 1 * q.val = e.val; omega

/-! ## The stored value at one index -/

/-- If three blocks are, along row p and column q, the rows and columns of three arrays at (r, e), then the
    body's stored value at (p, q) is the product-plus-bias of the arrays at (r, e). -/
theorem stored_apply0 (x0 : FVec Ideal S2048x2048 .f32) (x1 : FVec Ideal S2048x256 .f32) (x2 : FVec Ideal S256 .f32)
    (A : S4096x2048.Idx → EReal) (W : S2048x6144.Idx → EReal) (B : S6144.Idx → EReal)
    (p : Fin 2048) (q : Fin 256) (r : Fin 4096) (e : Fin 6144)
    (h0 : ∀ k : Fin 2048, x0 (ix2 p k) = A (ix2 r k)) (h1 : ∀ k : Fin 2048, x1 (ix2 k q) = W (ix2 k e))
    (h2 : x2 (ix1 q) = B (ix1 e)) :
    k0_pay1 (F := Ideal) x0 x1 x2 (ix2 p q) = Cert.Spec.mm0 A W B (ix2 r e) := by
  rw [pay0_apply]
  show _ = (∑ k : Fin 2048, A (ix2 r k) * W (ix2 k e)) + B (ix1 e)
  rw [h2]
  congr 1
  exact Finset.sum_congr rfl fun k _ => by rw [h0, h1]

/-! ## What a point writes back -/

/-- What point \`t\` writes back is block \`t\` of the product-plus-bias of the three operands as the region finds them. -/
theorem flushed_eq0 (c : Dev nD) (t : Fin cfg0.N) :
    (dat0 V c).flushed 3 t
      = ((cfg0.win 3).blk t).view.read (Elt Ideal) (Cert.Spec.mm0 (V c main_v0) (V c main_arg1) (V c main_arg2)) := by
  show (cfg0.win 3).cut (grid0.coords t) ((dat0 V c).after 3 t) = _
  rw [after0_3]
  unfold out0_3
  rw [View.canon_unit_zero off2_zero0]
  simp only [View.ld_unit_zero (S := S2048x2048) off2_zero0, View.ld_unit_zero (S := S2048x256) off2_zero0,
    View.ld_unit_zero (S := S256) off1_zero0]
  funext y
  obtain ⟨p, q, rfl⟩ : ∃ (p : Fin 2048) (q : Fin 256), y = ix2 p q := ⟨y 0, y 1, eq_ix2 y⟩
  rw [View.read_apply]
  have hr : ∃ r : Fin 4096, r.val = win0_3.index t (0 : Fin 2) * 2048 + p.val := by
    obtain ⟨-, -, -, -, -, b0, -⟩ := block_indices0 t
    exact ⟨⟨win0_3.index t (0 : Fin 2) * 2048 + p.val, by have := p.isLt; omega⟩, rfl⟩
  have he : ∃ e : Fin 6144, e.val = win0_3.index t (1 : Fin 2) * 256 + q.val := by
    obtain ⟨-, -, -, -, -, -, b1⟩ := block_indices0 t
    exact ⟨⟨win0_3.index t (1 : Fin 2) * 256 + q.val, by have := q.isLt; omega⟩, rfl⟩
  obtain ⟨r, hr⟩ := hr
  obtain ⟨e, he⟩ := he
  have hemb : ((cfg0.win 3).blk t).view.emb (ix2 p q) = (ix2 r e : S4096x6144.Idx) := by
    funext a
    apply Fin.ext
    match a with
    | ⟨0, _⟩ => show win0_3.index t (0 : Fin 2) * 2048 + 1 * p.val = r.val; omega
    | ⟨1, _⟩ => show win0_3.index t (1 : Fin 2) * 256 + 1 * q.val = e.val; omega
  rw [hemb]
  exact stored_apply0 _ _ _ _ _ _ p q r e (fun k => lhs_block_apply0 V c t p k r hr)
    (fun k => rhs_block_apply0 V c t k q e he) (bias_block_apply0 V c t q e he)

/-! ## The blocks tile the result -/

/-- An index of the result lies in point \`t\`'s block exactly when, on each axis, its coordinate lies in the
    block's range: from the block index times the block's extent, for the extent. -/
theorem mem_block0 (t : Fin cfg0.N) (i : S4096x6144.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v1).slice (win0_3.rect t)).set ↔ _
  rw [View.set_slice_whole, Rect.mem_set_unit]
  exact Iff.rfl

/-- Every index (r, e) of the result is in the block of a point that writes back: the point whose block index is
    (r / 2048, e / 256). -/
theorem covered0 (i : S4096x6144.Idx) :
    ∃ t : Fin cfg0.N, (cfg0.win 3).flush t = true ∧ i ∈ ((cfg0.win 3).blk t).view.set := by
  have hi0 : (i 0).val < 4096 := (i 0).isLt
  have hi1 : (i 1).val < 6144 := (i 1).isLt
  obtain ⟨t, ht⟩ := block_indices_onto0 ⟨(i 0).val / 2048, by omega⟩ ⟨(i 1).val / 256, by omega⟩
  have q0 : win0_3.index t (0 : Fin 2) = (i 0).val / 2048 := congrFun ht 0
  have q1 : win0_3.index t (1 : Fin 2) = (i 1).val / 256 := congrFun ht 1
  refine ⟨t, flush0_3 t, ?_⟩
  rw [mem_block0]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 256 ≤ (i 1).val ∧ (i 1).val < win0_3.index t (1 : Fin 2) * 256 + 256
    omega

/-- After the first region's last write-back its result array holds row r of the first operand times column e of the
    second plus the bias at e, at every (r, e). -/
theorem final0 (c : Dev nD) :
    (dat0 V c).arrAt 3 cfg0.N = Cert.Spec.mm0 (V c main_v0) (V c main_arg1) (V c main_arg2) :=
  (dat0 V c).arrAt_eq_of_cover 3 _ (fun t _ => flushed_eq0 V c t) covered0

end Cert.KernelIdeal.Hand

end
-- ==== Proof.KIBridge.lean ====
/-
  The two reshapes between the regions. The first region's first operand is the first argument [2, 2048, 2048] read as
  [4096, 2048]: its row 2048·b + s is the argument's row (b, s). The attention region reads the first region's result
  [4096, 6144] as [2, 2048, 6144]: its entry (b, s, e) is the result's entry (2048·b + s, e). So the projection the
  attention region finds is, at (b, s, e), row (b, s) of the first argument times column e of the second plus the
  third at e.
-/
import proofs.«400691_j29222957482045_3_alg».proof.Proof.KIRun
import proofs.«400691_j29222957482045_3_alg».proof.Proof.KIValue0
import proofs.«400691_j29222957482045_3_alg».proof.Proof.Spec
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ## The two reshapes read at an index -/

/-- A `[4096, 6144]` array read as `[2, 2048, 6144]`: the entry (b, s, e) is the entry (2048·b + s, e). -/
theorem reshape_rows_splitB {α : Type} (x : S4096x6144.Idx → α) (b : Fin 2) (s : Fin 2048) (e : Fin 6144) :
    shapeCast S2x2048x6144 x shapeCasts_S4096x6144_S2x2048x6144 (ix3 b s e)
      = x (ix2 (⟨2048 * b.val + s.val, by omega⟩ : Fin 4096) e) :=
  shapeCast_apply x _ _ _ (by
    rw [Shape.rowMajor_val_two, Shape.rowMajor_val_three]
    show (2048 * b.val + s.val) * 6144 + e.val = (b.val * 2048 + s.val) * 6144 + e.val
    omega)

/-- A `[2, 2048, 2048]` array read as `[4096, 2048]`: the entry (2048·b + s, k) is the entry (b, s, k). -/
theorem reshape_rows_mergeB {α : Type} (x : S2x2048x2048.Idx → α) (b : Fin 2) (s : Fin 2048) (k : Fin 2048) :
    shapeCast S4096x2048 x shapeCasts_S2x2048x2048_S4096x2048 (ix2 (⟨2048 * b.val + s.val, by omega⟩ : Fin 4096) k)
      = x (ix3 b s k) :=
  shapeCast_apply x _ _ _ (by
    rw [Shape.rowMajor_val_three, Shape.rowMajor_val_two]
    show (b.val * 2048 + s.val) * 2048 + k.val = (2048 * b.val + s.val) * 2048 + k.val
    omega)

/-! ## What the two reshapes write, and what the first region finds and leaves -/

/-- The array the attention region finds is the first region's result array, reshaped. -/
theorem V3_v2_eqB (c : Dev nD) :
    (V3 m ρ c main_v2 : S2x2048x6144.Idx → EReal)
      = shapeCast S2x2048x6144 (W2 m ρ c (Proc.devRef .tc main_v1) : S4096x6144.Idx → EReal) shapeCasts_S4096x6144_S2x2048x6144 := by
  show StableHlo.after hostOps1 (W2 m ρ c) (Proc.devRef .tc main_v2) = _
  after_results
  rfl

/-- The first region's first operand is the first argument, reshaped. -/
theorem V1_v0_eqB (c : Dev nD) :
    (V1 m ρ c main_v0 : S4096x2048.Idx → EReal)
      = shapeCast S4096x2048 (m ((c.tc : Thread nD τ).loc main_arg0) : S2x2048x2048.Idx → EReal) shapeCasts_S2x2048x2048_S4096x2048 := by
  show StableHlo.after hostOps0 (W0 m ρ c) (Proc.devRef .tc main_v0) = _
  after_results
  rfl

/-- Its other two operands are the second and third arguments as launched. -/
theorem V1_arg1_eqB (c : Dev nD) : V1 m ρ c main_arg1 = m ((c.tc : Thread nD τ).loc main_arg1) :=
  (W1_of m ρ c main_arg1 (by decide)).trans rfl
theorem V1_arg2_eqB (c : Dev nD) : V1 m ρ c main_arg2 = m ((c.tc : Thread nD τ).loc main_arg2) :=
  (W1_of m ρ c main_arg2 (by decide)).trans rfl

/-- The first region leaves, in its result array, each row of its first operand times each column of the second, plus the bias. -/
theorem W2_v1_eqB (c : Dev nD) :
    (W2 m ρ c (Proc.devRef .tc main_v1) : S4096x6144.Idx → EReal)
      = Cert.Spec.mm0 (V1 m ρ c main_v0) (V1 m ρ c main_arg1) (V1 m ρ c main_arg2) :=
  (W2_arr m ρ c 3).trans (final0 (V1 m ρ) c)

/-- The projection array the attention region finds, read by coordinates, is the fused projection of the three
    arguments. -/
theorem Qof_V3 (c : Dev nD) :
    Cert.Spec.Qof (V3 m ρ c main_v2)
      = fun b s e => Cert.Spec.qkvAt (m ((c.tc : Thread nD τ).loc main_arg0)) (m ((c.tc : Thread nD τ).loc main_arg1))
          (m ((c.tc : Thread nD τ).loc main_arg2)) b s e := by
  funext b s e
  unfold Cert.Spec.Qof Cert.Spec.qkvAt
  rw [V3_v2_eqB, reshape_rows_splitB, W2_v1_eqB]
  unfold Cert.Spec.mm0
  rw [V1_arg1_eqB, V1_arg2_eqB, V1_v0_eqB]
  refine congrArg₂ (· + ·) (Finset.sum_congr rfl fun k _ => ?_) rfl
  exact congrArg (· * _) (reshape_rows_mergeB _ b s k)

end Cert.KernelIdeal.Hand

end
-- ==== Proof.RefValue.lean ====
/-
  The reference's two results, stage by stage, are the specification's arrays of the fused projection of the
  arguments: its probabilities are the row softmax of the scaled logits, its attention output the probabilities
  times the value columns laid back into [2, 2048, 2048].
-/
import proofs.«400691_j29222957482045_3_alg».proof.Proof.Gen.ReferenceIdeal.Read
import proofs.«400691_j29222957482045_3_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The index maps of the layout stages, composed, at explicit coordinates -/

/-- The projection's left operand index at (b, s, e), term k: row (b, s) of the first argument at k. -/
theorem lidx0_at (b : Fin 2) (s : Fin 2048) (e : Fin 6144) (k : Fin 2048) :
    lidx_main_v0 (ix3 b s e) k = ix3 b s k :=
  funext fun a => match a with | ⟨0, _⟩ => rfl | ⟨1, _⟩ => rfl | ⟨2, _⟩ => rfl

/-- The projection's right operand index at (b, s, e), term k: column e of the second argument at k. -/
theorem ridx0_at (b : Fin 2) (s : Fin 2048) (e : Fin 6144) (k : Fin 2048) :
    ridx_main_v0 (ix3 b s e) k = ix2 k e :=
  funext fun a => match a with | ⟨0, _⟩ => rfl | ⟨1, _⟩ => rfl

/-- The two bias broadcasts read the bias at the column. -/
theorem bidx_at (b : Fin 2) (s : Fin 2048) (e : Fin 6144) :
    idx_main_v1 (idx_main_v2 (ix3 b s e)) = ix1 e :=
  funext fun a => match a with | ⟨0, _⟩ => rfl

/-- Slice 0, split into heads and transposed: element (b, h, s, d) is the projection's column 0·2048 + h·128 + d of row (b, s). -/
theorem qidx_at (b : Fin 2) (h : Fin 16) (s : Fin 2048) (d : Fin 128) :
    idx_main_v4 (idx_main_v7 (idx_main_v8 (ix4 b h s d))) = ix3 b s (Cert.Spec.col 0 h d) := by
  have hb := b.isLt; have hh := h.isLt; have hs := s.isLt; have hd := d.isLt
  funext a
  match a with
  | ⟨0, _⟩ => exact Fin.ext (by show (((b.val * 2048 + s.val) * 16 + h.val) * 128 + d.val) / 4194304 = b.val; omega)
  | ⟨1, _⟩ => exact Fin.ext (by show (((b.val * 2048 + s.val) * 16 + h.val) * 128 + d.val) / 2048 % 2048 = s.val; omega)
  | ⟨2, _⟩ => exact Fin.ext (by show (((b.val * 2048 + s.val) * 16 + h.val) * 128 + d.val) % 2048 = 0 * 2048 + h.val * 128 + d.val; omega)

/-- Slice 1, split into heads and transposed: element (b, h, s, d) is the projection's column 1·2048 + h·128 + d of row (b, s). -/
theorem kidx_at (b : Fin 2) (h : Fin 16) (s : Fin 2048) (d : Fin 128) :
    idx_main_v5 (idx_main_v9 (idx_main_v10 (ix4 b h s d))) = ix3 b s (Cert.Spec.col 1 h d) := by
  have hb := b.isLt; have hh := h.isLt; have hs := s.isLt; have hd := d.isLt
  funext a
  match a with
  | ⟨0, _⟩ => exact Fin.ext (by show (((b.val * 2048 + s.val) * 16 + h.val) * 128 + d.val) / 4194304 = b.val; omega)
  | ⟨1, _⟩ => exact Fin.ext (by show (((b.val * 2048 + s.val) * 16 + h.val) * 128 + d.val) / 2048 % 2048 = s.val; omega)
  | ⟨2, _⟩ => exact Fin.ext (by show 2048 + (((b.val * 2048 + s.val) * 16 + h.val) * 128 + d.val) % 2048 = 1 * 2048 + h.val * 128 + d.val; omega)

/-- Slice 2, split into heads and transposed: element (b, h, s, d) is the projection's column 2·2048 + h·128 + d of row (b, s). -/
theorem vidx_at (b : Fin 2) (h : Fin 16) (s : Fin 2048) (d : Fin 128) :
    idx_main_v6 (idx_main_v11 (idx_main_v12 (ix4 b h s d))) = ix3 b s (Cert.Spec.col 2 h d) := by
  have hb := b.isLt; have hh := h.isLt; have hs := s.isLt; have hd := d.isLt
  funext a
  match a with
  | ⟨0, _⟩ => exact Fin.ext (by show (((b.val * 2048 + s.val) * 16 + h.val) * 128 + d.val) / 4194304 = b.val; omega)
  | ⟨1, _⟩ => exact Fin.ext (by show (((b.val * 2048 + s.val) * 16 + h.val) * 128 + d.val) / 2048 % 2048 = s.val; omega)
  | ⟨2, _⟩ => exact Fin.ext (by show 4096 + (((b.val * 2048 + s.val) * 16 + h.val) * 128 + d.val) % 2048 = 2 * 2048 + h.val * 128 + d.val; omega)

/-- The logits' left operand index at (b, h, q, k), lane d. -/
theorem lidx13_at (b : Fin 2) (h : Fin 16) (q k : Fin 2048) (d : Fin 128) :
    lidx_main_v13 (ix4 b h q k) d = ix4 b h q d :=
  funext fun a => match a with | ⟨0, _⟩ => rfl | ⟨1, _⟩ => rfl | ⟨2, _⟩ => rfl | ⟨3, _⟩ => rfl

/-- The logits' right operand index at (b, h, q, k), lane d. -/
theorem ridx13_at (b : Fin 2) (h : Fin 16) (q k : Fin 2048) (d : Fin 128) :
    ridx_main_v13 (ix4 b h q k) d = ix4 b h k d :=
  funext fun a => match a with | ⟨0, _⟩ => rfl | ⟨1, _⟩ => rfl | ⟨2, _⟩ => rfl | ⟨3, _⟩ => rfl

/-- The two broadcasts of the row maximum read it at the row. -/
theorem idx20_at (b : Fin 2) (h : Fin 16) (q k : Fin 2048) :
    idx_main_v19 (idx_main_v20 (ix4 b h q k)) = ix3 b h q :=
  funext fun a => match a with | ⟨0, _⟩ => rfl | ⟨1, _⟩ => rfl | ⟨2, _⟩ => rfl

/-- The two broadcasts of the row sum read it at the row. -/
theorem idx25_at (b : Fin 2) (h : Fin 16) (q k : Fin 2048) :
    idx_main_v24 (idx_main_v25 (ix4 b h q k)) = ix3 b h q :=
  funext fun a => match a with | ⟨0, _⟩ => rfl | ⟨1, _⟩ => rfl | ⟨2, _⟩ => rfl

/-- The row sum's operand index at row (b, h, q), term k. -/
theorem idx23_at (b : Fin 2) (h : Fin 16) (q k : Fin 2048) :
    idx_main_v23 (ix3 b h q) k = ix4 b h q k :=
  funext fun a => match a with | ⟨0, _⟩ => rfl | ⟨1, _⟩ => rfl | ⟨2, _⟩ => rfl | ⟨3, _⟩ => rfl

/-- The mixing's left operand index at (b, h, q, d), key k. -/
theorem lidx27_at (b : Fin 2) (h : Fin 16) (q : Fin 2048) (d : Fin 128) (k : Fin 2048) :
    lidx_main_v27 (ix4 b h q d) k = ix4 b h q k :=
  funext fun a => match a with | ⟨0, _⟩ => rfl | ⟨1, _⟩ => rfl | ⟨2, _⟩ => rfl | ⟨3, _⟩ => rfl

/-- The mixing's right operand index at (b, h, q, d), key k. -/
theorem ridx27_at (b : Fin 2) (h : Fin 16) (q : Fin 2048) (d : Fin 128) (k : Fin 2048) :
    ridx_main_v27 (ix4 b h q d) k = ix4 b h k d :=
  funext fun a => match a with | ⟨0, _⟩ => rfl | ⟨1, _⟩ => rfl | ⟨2, _⟩ => rfl | ⟨3, _⟩ => rfl

/-- The result's column c of row (b, s) is lane c mod 128 of head c / 128. -/
theorem oidx_at (b : Fin 2) (s c : Fin 2048) :
    idx_main_v28 (idx_main_v29 (ix3 b s c))
      = ix4 b (⟨c.val / 128, by have hc := c.isLt; omega⟩ : Fin 16) s (⟨c.val % 128, Nat.mod_lt _ (by decide)⟩ : Fin 128) := by
  have hb := b.isLt; have hs := s.isLt; have hc := c.isLt
  funext a
  match a with
  | ⟨0, _⟩ => exact Fin.ext (by show ((b.val * 2048 + s.val) * 2048 + c.val) / 4194304 = b.val; omega)
  | ⟨1, _⟩ => exact Fin.ext (by show ((b.val * 2048 + s.val) * 2048 + c.val) / 128 % 16 = c.val / 128; omega)
  | ⟨2, _⟩ => exact Fin.ext (by show ((b.val * 2048 + s.val) * 2048 + c.val) / 2048 % 2048 = s.val; omega)
  | ⟨3, _⟩ => exact Fin.ext (by show ((b.val * 2048 + s.val) * 2048 + c.val) % 128 = c.val % 128; omega)

/-! ## The stages at explicit coordinates -/

section Stages
variable (x : FVec Ideal S2x2048x2048 .f32) (w : FVec Ideal S2048x6144 .f32) (bias : FVec Ideal S6144 .f32)

/-- The projection stage at (b, s, e) is the specification's projection. -/
theorem v3_at (b : Fin 2) (s : Fin 2048) (e : Fin 6144) :
    val_main_v3 (F := Ideal) x w bias (ix3 b s e) = Cert.Spec.qkvAt x w bias b s e := by
  rw [val_main_v3_apply, val_main_v0_apply, val_main_v2_apply, val_main_v1_apply, bidx_at]
  unfold Cert.Spec.qkvAt
  refine congrArg (· + bias (ix1 e)) (Finset.sum_congr rfl fun k _ => ?_)
  rw [lidx0_at, ridx0_at]

/-- The query stage at (b, h, s, d): the projection's column h·128 + d of row (b, s). -/
theorem v8_at (b : Fin 2) (h : Fin 16) (s : Fin 2048) (d : Fin 128) :
    val_main_v8 (F := Ideal) x w bias (ix4 b h s d) = Cert.Spec.qkvAt x w bias b s (Cert.Spec.col 0 h d) := by
  rw [val_main_v8_apply, val_main_v7_apply, val_main_v4_apply, qidx_at, v3_at]

/-- The key stage at (b, h, s, d): the projection's column 2048 + h·128 + d of row (b, s). -/
theorem v10_at (b : Fin 2) (h : Fin 16) (s : Fin 2048) (d : Fin 128) :
    val_main_v10 (F := Ideal) x w bias (ix4 b h s d) = Cert.Spec.qkvAt x w bias b s (Cert.Spec.col 1 h d) := by
  rw [val_main_v10_apply, val_main_v9_apply, val_main_v5_apply, kidx_at, v3_at]

/-- The value stage at (b, h, s, d): the projection's column 4096 + h·128 + d of row (b, s). -/
theorem v12_at (b : Fin 2) (h : Fin 16) (s : Fin 2048) (d : Fin 128) :
    val_main_v12 (F := Ideal) x w bias (ix4 b h s d) = Cert.Spec.qkvAt x w bias b s (Cert.Spec.col 2 h d) := by
  rw [val_main_v12_apply, val_main_v11_apply, val_main_v6_apply, vidx_at, v3_at]

/-- The scaled logits stage at (b, h, q, k) is the specification's logit. -/
theorem v15_at (b : Fin 2) (h : Fin 16) (q k : Fin 2048) :
    val_main_v15 (F := Ideal) x w bias (ix4 b h q k)
      = Cert.Spec.logit (fun b s e => Cert.Spec.qkvAt x w bias b s e) b h q k := by
  rw [val_main_v15_apply, val_main_v14_apply, val_main_cst_apply, val_main_v13_apply]
  unfold Cert.Spec.logit Cert.Spec.scale
  refine congrArg (· * Ideal.ofBits .f32 0x3DB504F3#32) (Finset.sum_congr rfl fun d _ => ?_)
  rw [lidx13_at, ridx13_at, v8_at, v10_at]

/-- The witness the row maximum's fold is read through. -/
theorem reduces3 : S2x16x2048x2048.Reduces [3] S2x16x2048 := by decide

/-- Row (b, h, q) with the key coordinate k put back on the last axis. -/
theorem lift_at (b : Fin 2) (h : Fin 16) (q k : Fin 2048) :
    reduces3.lift (ix3 b h q) k = ix4 b h q k :=
  funext fun a => match a with | ⟨0, _⟩ => rfl | ⟨1, _⟩ => rfl | ⟨2, _⟩ => rfl | ⟨3, _⟩ => rfl

/-- The row maximum stage at (b, h, q): the fold of `max` from the word of −∞ over the row of logits. -/
theorem v16_at (b : Fin 2) (h : Fin 16) (q : Fin 2048) :
    val_main_v16 (F := Ideal) x w bias (ix3 b h q)
      = Cert.Spec.rowMax (fun k' => Cert.Spec.logit (fun b s e => Cert.Spec.qkvAt x w bias b s e) b h q k') := by
  unfold val_main_v16
  rw [Host.reduce_eq_fold_single (s := S2x16x2048x2048) (t := S2x16x2048) (a := 3) (u := S_)
    (FloatOps.maximumf (F := Ideal) (φ := .f32)) (val_main_v15 (F := Ideal) x w bias) (val_main_cst_0 (F := Ideal))
    reducesTo_S2x16x2048x2048_S2x16x2048_d3 reduces3 h_S_ (ix3 b h q)]
  have hf : (val_main_v15 (F := Ideal) x w bias ∘ reduces3.lift (ix3 b h q))
      = fun k' : Fin 2048 => Cert.Spec.logit (fun b s e => Cert.Spec.qkvAt x w bias b s e) b h q k' :=
    funext fun k' =>
      (congrArg (val_main_v15 (F := Ideal) x w bias) (lift_at b h q k')).trans (v15_at x w bias b h q k')
  exact congrArg (fun f => Finset.fold max (Ideal.ofBits .f32 0xFF800000#32) f (Finset.univ : Finset (Fin 2048))) hf

/-- The maximum with the broadcast word of −∞ changes nothing: the fold is at least its initial value. -/
theorem v18_at (b : Fin 2) (h : Fin 16) (q : Fin 2048) :
    val_main_v18 (F := Ideal) x w bias (ix3 b h q)
      = Cert.Spec.rowMax (fun k' => Cert.Spec.logit (fun b s e => Cert.Spec.qkvAt x w bias b s e) b h q k') := by
  rw [val_main_v18_apply, val_main_v17_apply, val_main_cst_1_apply, v16_at]
  exact max_eq_right ((Finset.le_fold_max _).mpr (Or.inl le_rfl))

/-- The broadcast row maximum at (b, h, q, k). -/
theorem v20_at (b : Fin 2) (h : Fin 16) (q k : Fin 2048) :
    val_main_v20 (F := Ideal) x w bias (ix4 b h q k)
      = Cert.Spec.rowMax (fun k' => Cert.Spec.logit (fun b s e => Cert.Spec.qkvAt x w bias b s e) b h q k') := by
  rw [val_main_v20_apply, val_main_v19_apply, idx20_at, v18_at]

/-- The exponential stage at (b, h, q, k). -/
theorem v22_at (b : Fin 2) (h : Fin 16) (q k : Fin 2048) :
    val_main_v22 (F := Ideal) x w bias (ix4 b h q k)
      = Ideal.exp (Cert.Spec.logit (fun b s e => Cert.Spec.qkvAt x w bias b s e) b h q k
          - Cert.Spec.rowMax (fun k' => Cert.Spec.logit (fun b s e => Cert.Spec.qkvAt x w bias b s e) b h q k')) := by
  rw [val_main_v22_apply, val_main_v21_apply, v15_at, v20_at]
  rfl

/-- The row sum stage at (b, h, q): the zero word adds nothing. -/
theorem v23_at (b : Fin 2) (h : Fin 16) (q : Fin 2048) :
    val_main_v23 (F := Ideal) x w bias (ix3 b h q)
      = ∑ k : Fin 2048, Ideal.exp (Cert.Spec.logit (fun b s e => Cert.Spec.qkvAt x w bias b s e) b h q k
          - Cert.Spec.rowMax (fun k' => Cert.Spec.logit (fun b s e => Cert.Spec.qkvAt x w bias b s e) b h q k')) := by
  rw [val_main_v23_apply, val_main_cst_2_apply, Ideal.ofBits_def, Ideal.ofBits_zero_f32, zero_add]
  refine Finset.sum_congr rfl fun k _ => ?_
  rw [idx23_at, v22_at]

/-- The broadcast row sum at (b, h, q, k). -/
theorem v25_at (b : Fin 2) (h : Fin 16) (q k : Fin 2048) :
    val_main_v25 (F := Ideal) x w bias (ix4 b h q k)
      = ∑ k : Fin 2048, Ideal.exp (Cert.Spec.logit (fun b s e => Cert.Spec.qkvAt x w bias b s e) b h q k
          - Cert.Spec.rowMax (fun k' => Cert.Spec.logit (fun b s e => Cert.Spec.qkvAt x w bias b s e) b h q k')) := by
  rw [val_main_v25_apply, val_main_v24_apply, idx25_at, v23_at]

/-- The probabilities stage at (b, h, q, k) is the specification's probability. -/
theorem v26_at (b : Fin 2) (h : Fin 16) (q k : Fin 2048) :
    val_main_v26 (F := Ideal) x w bias (ix4 b h q k)
      = Cert.Spec.prob (fun b s e => Cert.Spec.qkvAt x w bias b s e) b h q k := by
  rw [val_main_v26_apply, v22_at, v25_at]
  rfl

/-- The mixing stage at (b, h, q, d) is the specification's mixed value. -/
theorem v27_at (b : Fin 2) (h : Fin 16) (q : Fin 2048) (d : Fin 128) :
    val_main_v27 (F := Ideal) x w bias (ix4 b h q d)
      = Cert.Spec.mix (fun b s e => Cert.Spec.qkvAt x w bias b s e) b q h d := by
  rw [val_main_v27_apply]
  unfold Cert.Spec.mix
  refine Finset.sum_congr rfl fun k _ => ?_
  rw [lidx27_at, ridx27_at, v26_at, v12_at]

end Stages

/-- The reference's probabilities [2, 16, 2048, 2048] are the specification's, over the projection of the arguments. -/
theorem ref_scores (x : FVec Ideal S2x2048x2048 .f32) (w : FVec Ideal S2048x6144 .f32) (bias : FVec Ideal S6144 .f32) :
    val_main_v26 (F := Ideal) x w bias = Cert.Spec.scoresArr (fun b s e => Cert.Spec.qkvAt x w bias b s e) := by
  funext i
  obtain ⟨b, h, q, k, rfl⟩ : ∃ (b : Fin 2) (h : Fin 16) (q k : Fin 2048), i = ix4 b h q k :=
    ⟨i 0, i 1, i 2, i 3, eq_ix4 i⟩
  exact v26_at x w bias b h q k

/-- The reference's attention output [2, 2048, 2048] is the specification's, over the projection of the arguments. -/
theorem ref_attn (x : FVec Ideal S2x2048x2048 .f32) (w : FVec Ideal S2048x6144 .f32) (bias : FVec Ideal S6144 .f32) :
    val_main_v29 (F := Ideal) x w bias = Cert.Spec.attnArr (fun b s e => Cert.Spec.qkvAt x w bias b s e) := by
  funext i
  obtain ⟨b, s, c, rfl⟩ : ∃ (b : Fin 2) (s c : Fin 2048), i = ix3 b s c := ⟨i 0, i 1, i 2, eq_ix3 i⟩
  rw [val_main_v29_apply, val_main_v28_apply, oidx_at, v27_at]
  rfl

end Cert.ReferenceIdeal.RefValue

end
-- ==== Proof.lean ====
/-
  A fused projection followed by multi-head attention: qkv = X·W + bias over [2, 2048, 6144]; per batch and head the
  scaled logits of the 2048 queries against the 2048 keys, their row softmax (the probabilities, the second result)
  and the probabilities times the values laid out head by head in [2, 2048, 2048] (the first result).

  The kernel computes this in two regions: a tiled matrix product with the bias added, whose 48 blocks tile the
  projection, then per (batch, head, block of 256 queries) the logits, the row softmax and the product with the values,
  whose 256 blocks tile each result. Over the extended reals every change of float format is the identity, a matrix
  product into a zero accumulator is the plain sum over the contracted axis and both sides multiply the logits by the
  same binary word, so each block entry is the reference's entry at the same index: the two programs compute one
  function of the arguments, index by index. No algebraic law beyond reading the sums is needed, and finiteness of the
  inputs is not used. The reference's extra maximum with −∞ is absorbed because a fold of max is at least its initial
  value.

  The frames: every run of each program ends with the three arguments unchanged. For the kernel program (word-level
  and idealized alike: the ideal pass rewrote nothing) this is the run through its four items, with the projection's
  buffer dealt to the attention region's three reading windows; for the reference it is its run with the results dropped.
-/
import proofs.«400691_j29222957482045_3_alg».proof.Defs
import proofs.«400691_j29222957482045_3_alg».proof.Proof.Gen.Kernel
import proofs.«400691_j29222957482045_3_alg».proof.Proof.Gen.KernelIdeal
import proofs.«400691_j29222957482045_3_alg».proof.Proof.Gen.ReferenceIdeal
import proofs.«400691_j29222957482045_3_alg».proof.Proof.Gen.Pre_finite_inputs
import proofs.«400691_j29222957482045_3_alg».proof.Proof.Gen.ReferenceIdeal.Run
import proofs.«400691_j29222957482045_3_alg».proof.Proof.Gen.ReferenceIdeal.Read
import proofs.«400691_j29222957482045_3_alg».proof.Proof.KRun
import proofs.«400691_j29222957482045_3_alg».proof.Proof.KIRun
import proofs.«400691_j29222957482045_3_alg».proof.Proof.KIValue1
import proofs.«400691_j29222957482045_3_alg».proof.Proof.KIBridge
import proofs.«400691_j29222957482045_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ =>
  (θ_run (Cert.Kernel.defs (F := Bits)) _ _).mono (fun _ h c => (h c).2.2) (Cert.Kernel.Hand.run (F := Bits) m ρ)

/-- The idealized kernel program runs to the end and leaves its arguments unchanged. -/
theorem frame_ki : Cert.frame_KernelIdeal := fun m ρ _ =>
  (θ_run (Cert.KernelIdeal.defs (F := Ideal)) _ _).mono (fun _ h c => (h c).2.2) (Cert.KernelIdeal.Hand.run (F := Ideal) m ρ)

/-- The reference runs to the end and leaves its arguments unchanged: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to preserve. -/
theorem preserves : Cert.preserves_Kernel_KernelIdeal := trivial

/-- Over the extended reals both programs end with the attention output and the probabilities of the fused projection
    of the arguments: the kernel by its two regions' blocks, which tile the results, the reference stage by stage. -/
theorem algebraic : Cert.algebraic_KernelIdeal_ReferenceIdeal := by
  intro m ρ m' ρ' _ hagree
  refine ⟨fun c => Cert.Spec.attnArr (fun b s e => Cert.Spec.qkvAt (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) b s e),
      fun c => Cert.Spec.scoresArr (fun b s e => Cert.Spec.qkvAt (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) b s e),
      ?_, ?_⟩
  · exact (θ_run (Cert.KernelIdeal.defs (F := Ideal)) _ _).mono (fun _ h c =>
      ⟨(h c).1.trans ((Cert.KernelIdeal.Hand.final1_3 (Cert.KernelIdeal.Hand.V3 m ρ) c).trans
          (congrArg Cert.Spec.attnArr (Cert.KernelIdeal.Hand.Qof_V3 m ρ c))),
        (h c).2.1.trans ((Cert.KernelIdeal.Hand.final1_4 (Cert.KernelIdeal.Hand.V3 m ρ) c).trans
          (congrArg Cert.Spec.scoresArr (Cert.KernelIdeal.Hand.Qof_V3 m ρ c))),
        (h c).2.2⟩) (Cert.KernelIdeal.Hand.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v29_eq, Cert.ReferenceIdeal.RefValue.ref_attn, (hagree c).1, (hagree c).2.1, (hagree c).2.2]
    · rw [Cert.ReferenceIdeal.Read.val_main_v26_eq, Cert.ReferenceIdeal.RefValue.ref_scores, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
